-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S_ : Shape := ⟨0, ![]⟩

class Facts : Prop where
  bcast_S_S128x512x256 : S_.BroadcastsInDim S128x512x256 (![] : Fin 0 → Fin S128x512x256.rank)
  reducesTo_S128x512x256_S_d0_1_2 : S128x512x256.ReducesTo [0, 1, 2] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg1 : FVec F S128x512x512 .f32) (main_v48 : IVec S_ 1) (main_v50 : IVec S128x512x512 1) : IVec S_ 1 :=
  let main_cst_19 : FVec F S_ .f32 := constant S_ .f32 0x3F800000#32
  let main_v51 : FVec F S128x512x512 .f32 := broadcastInDim S128x512x512 ![] bcast_S_S128x512x512 main_cst_19
  let main_v52 : IVec S128x512x512 1 := cmpf .oeq main_arg1 main_v51
  let main_v53 : IVec S128x512x512 1 := ori main_v50 main_v52
  let main_c_20 : IVec S_ 1 := constantI S_ 1 1#1
  let main_v54 : IVec S_ 1 := (fun x v => Host.reduce IntOp.andi x v reducesTo_S128x512x512_S_d0_1_2 h_S_) main_v53 main_c_20
  let main_v55 : IVec S_ 1 := andi main_v48 main_v54
  main_v55

def fn_part2 {F : FTy → Type} [FloatOps F] (main_arg1 : FVec F S128x512x512 .f32) (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_cst_18 : FVec F S_ .f32 := constant S_ .f32 0x00000000#32
  let main_v49 : FVec F S128x512x512 .f32 := broadcastInDim S128x512x512 ![] bcast_S_S128x512x512 main_cst_18
  let main_v50 : IVec S128x512x512 1 := cmpf .oeq main_arg1 main_v49
  fn_part3 (F := F) main_arg1 main_v48 main_v50

def fn_part1 {F : FTy → Type} [FloatOps F] (main_arg1 : FVec F S128x512x512 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S128x512x256 .f32) (main_arg1 : FVec F S128x512x512 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S128x512x256 .f32 := Host.absf main_arg0
  let main_cst : FVec F S_ .f32 := constant S_ .f32 0x7F800000#32
  let main_v1 : FVec F S128x512x256 .f32 := broadcastInDim S128x512x256 ![] bcast_S_S128x512x256 main_cst
  let main_v2 : IVec S128x512x256 1 := cmpf .olt main_v0 main_v1
  let main_c : IVec S_ 1 := constantI S_ 1 1#1
  let main_v3 : IVec S_ 1 := (fun x v => Host.reduce IntOp.andi x v reducesTo_S128x512x256_S_d0_1_2 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg4 main_arg5 main_arg6 main_arg7 main_arg8 main_arg9 main_v13 main_v16
-- ==== Kernel.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S256x768 : Shape := ⟨2, ![256, 768]⟩
abbrev S768 : Shape := ⟨1, ![768]⟩
abbrev S8x512x256 : Shape := ⟨3, ![8, 512, 256]⟩
abbrev S8x512x512 : Shape := ⟨3, ![8, 512, 512]⟩
abbrev S1x512x256 : Shape := ⟨3, ![1, 512, 256]⟩
abbrev S512x256 : Shape := ⟨2, ![512, 256]⟩
abbrev S512x768 : Shape := ⟨2, ![512, 768]⟩
abbrev S1x768 : Shape := ⟨2, ![1, 768]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x256 : Shape := ⟨2, ![1, 256]⟩

abbrev nBuf : Space → Nat
  | .hbm => 13
  | .vmem => 10
  | .smem => 0
  | _ => 0

abbrev bufTy : (tb : Table) → Fin (tcTables nBuf tb) → BufTy
  | .hbm, ⟨0, _⟩ => ⟨S128x512x256, .f32⟩
  | .hbm, ⟨1, _⟩ => ⟨S128x512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x768, .f32⟩
  | .hbm, ⟨11, _⟩ => ⟨S768, .f32⟩
  | .hbm, ⟨12, _⟩ => ⟨S128x512x256, .f32⟩
  | .local _ .vmem, ⟨0, _⟩ => ⟨S8x512x256, .f32⟩
  | .local _ .vmem, ⟨1, _⟩ => ⟨S8x512x256, .f32⟩
  | .local _ .vmem, ⟨2, _⟩ => ⟨S8x512x512, .f32⟩
  | .local _ .vmem, ⟨3, _⟩ => ⟨S8x512x512, .f32⟩
  | .local _ .vmem, ⟨4, _⟩ => ⟨S256x768, .f32⟩
  | .local _ .vmem, ⟨5, _⟩ => ⟨S768, .f32⟩
  | .local _ .vmem, ⟨6, _⟩ => ⟨S256x256, .f32⟩
  | .local _ .vmem, ⟨7, _⟩ => ⟨S256, .f32⟩
  | .local _ .vmem, ⟨8, _⟩ => ⟨S8x512x256, .f32⟩
  | .local _ .vmem, ⟨9, _⟩ => ⟨S8x512x256, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v9 : BitVec 32 := Scalar.muli arg8 c1_i32_6
  let v10 : BitVec 32 := Scalar.addi c0_i32_7 v9
  let v11 : Index := Scalar.indexCast v10
  let c0_8 : Index := 0#32
  let c0_9 : Index := 0#32
  ![v11.toNat, 0, 0]
def k0_off2 (k0_t1 : Fin k0_t1_loop.trips) : Fin 3 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v9 : BitVec 32 := Scalar.muli arg8 c1_i32_6
  let v10 : BitVec 32 := Scalar.addi c0_i32_7 v9
  let v28 : Index := Scalar.indexCast v10
  let c0_12 : Index := 0#32
  let c0_13 : Index := 0#32
  ![v28.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x256_S256x256_S256x256_S256x768_d1 : Shape.Concatenates [S256x256, S256x256, S256x256] S256x768 1
  concatenates_S256_S256_S256_S768_d0 : Shape.Concatenates [S256, S256, S256] S768 0
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S768_S768_0 : ∀ a, (![0] : Fin 1 → Nat) a + S768.size a ≤ S768.size a
  h_S768 : 0 < S768.numel
  shapeCasts_S768_S768 : S768.ShapeCasts S768
  inb_S256_S256_0 : ∀ a, (![0] : Fin 1 → Nat) a + S256.size a ≤ S256.size a
  h_S256 : 0 < S256.numel
  h_S1x512x256 : 0 < S1x512x256.numel
  shapeCasts_S1x512x256_S512x256 : S1x512x256.ShapeCasts S512x256
  shapeCasts_S768_S1x768 : S768.ShapeCasts S1x768
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  shapeCasts_S256_S1x256 : S256.ShapeCasts S1x256
  broadcasts_S1x256_S512x256 : S1x256.Broadcasts S512x256
  shapeCasts_S512x256_S1x512x256 : S512x256.ShapeCasts S1x512x256
  dot_S512x256_S256x768_S512x768_1_0_0_1_n_n_wf : DotDims.WF S512x256 S256x768 S512x768 [1] [0] [0] [1] [] []
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  k0_t1_ok : k0_t1_loop.OK
  k0_off1_inb : ∀ k0_t1 : Fin k0_t1_loop.trips, ∀ a, (k0_off1 k0_t1) a + S1x512x256.size a ≤ S8x512x256.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S128x512x512.size a
  hwx0_1 : ∀ i : grid0.Coords, EltTy.bits .f32 = 32 ∨ (Rect.block (s := S128x512x512) S8x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x256.size a ≤ S128x512x256.size a
  hwx0_6 : ∀ i : grid0.Coords, EltTy.bits .f32 = 32 ∨ (Rect.block (s := S128x512x256) S8x512x256.size (cc0_transform_6 i) (hinb0_6 i)).WholeWords (EltTy.packing .f32)

variable [Facts₀]

def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x256 : Shape := ⟨3, ![128, 512, 256]⟩
abbrev S128x512x512 : Shape := ⟨3, ![128, 512, 512]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S128x512 : Shape := ⟨2, ![128, 512]⟩
abbrev S128x512x1 : Shape := ⟨3, ![128, 512, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S128x512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S128x512x256, .f32⟩
  | .hbm, ⟨11, _⟩ => ⟨S1x1x256, .f32⟩
  | .hbm, ⟨12, _⟩ => ⟨S128x512x256, .f32⟩
  | .hbm, ⟨13, _⟩ => ⟨S128x512x256, .f32⟩
  | .hbm, ⟨14, _⟩ => ⟨S_, .f32⟩
  | .hbm, ⟨15, _⟩ => ⟨S128x512x256, .f32⟩
  | .hbm, ⟨16, _⟩ => ⟨S128x512x256, .f32⟩
  | .hbm, ⟨17, _⟩ => ⟨S128x512x256, .f32⟩
  | .hbm, ⟨18, _⟩ => ⟨S1x1x256, .f32⟩
  | .hbm, ⟨19, _⟩ => ⟨S128x512x256, .f32⟩
  | .hbm, ⟨20, _⟩ => ⟨S128x512x256, .f32⟩
  | .hbm, ⟨21, _⟩ => ⟨S_, .f32⟩
  | .hbm, ⟨22, _⟩ => ⟨S128x512x256, .f32⟩
  | .hbm, ⟨23, _⟩ => ⟨S128x512x256, .f32⟩
  | .hbm, ⟨24, _⟩ => ⟨S128x512x256, .f32⟩
  | .hbm, ⟨25, _⟩ => ⟨S1x1x256, .f32⟩
  | .hbm, ⟨26, _⟩ => ⟨S128x512x256, .f32⟩
  | .hbm, ⟨27, _⟩ => ⟨S128x512x256, .f32⟩
  | .hbm, ⟨28, _⟩ => ⟨S_, .f32⟩
  | .hbm, ⟨29, _⟩ => ⟨S128x512x256, .f32⟩
  | .hbm, ⟨30, _⟩ => ⟨S128x512x256, .f32⟩
  | .hbm, ⟨31, _⟩ => ⟨S128x512x512, .f32⟩
  | .hbm, ⟨32, _⟩ => ⟨S128x512x512, .f32⟩
  | .hbm, ⟨33, _⟩ => ⟨S_, .f32⟩
  | .hbm, ⟨34, _⟩ => ⟨S128x512x512, .f32⟩
  | .hbm, ⟨35, _⟩ => ⟨S128x512x512, .f32⟩
  | .hbm, ⟨36, _⟩ => ⟨S_, .f32⟩
  | .hbm, ⟨37, _⟩ => ⟨S128x512x512, .f32⟩
  | .hbm, ⟨38, _⟩ => ⟨S128x512x512, .f32⟩
  | .hbm, ⟨39, _⟩ => ⟨S128x512x512, .f32⟩
  | .hbm, ⟨40, _⟩ => ⟨S_, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512x1, .f32⟩
  | .hbm, ⟨46, _⟩ => ⟨S128x512x512, .f32⟩
  | .hbm, ⟨47, _⟩ => ⟨S128x512x512, .f32⟩
  | .hbm, ⟨48, _⟩ => ⟨S128x512x512, .f32⟩
  | .hbm, ⟨49, _⟩ => ⟨S_, .f32⟩
  | .hbm, ⟨50, _⟩ => ⟨S128x512, .f32⟩
  | .hbm, ⟨51, _⟩ => ⟨S128x512x1, .f32⟩
  | .hbm, ⟨52, _⟩ => ⟨S128x512x512, .f32⟩
  | .hbm, ⟨53, _⟩ => ⟨S128x512x512, .f32⟩
  | .hbm, ⟨54, _⟩ => ⟨S128x512x256, .f32⟩
  | .hbm, ⟨55, _⟩ => ⟨S128x512x256, .f32⟩
  | .hbm, ⟨56, _⟩ => ⟨S1x1x256, .f32⟩
  | .hbm, ⟨57, _⟩ => ⟨S128x512x256, .f32⟩
  | .hbm, ⟨58, _⟩ => ⟨S128x512x256, .f32⟩
  | .hbm, ⟨59, _⟩ => ⟨S_, .f32⟩
  | .hbm, ⟨60, _⟩ => ⟨S128x512x256, .f32⟩
  | .hbm, ⟨61, _⟩ => ⟨S128x512x256, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call3_cst : Ref sig .tc := ⟨.hbm, 59, rfl⟩
abbrev main_call3_v0 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x512x256_0_1_2 : S1x1x256.BroadcastsInDim S128x512x256 (![0, 1, 2] : Fin 3 → Fin S128x512x256.rank)
  bcast_S_S128x512x256 : S_.BroadcastsInDim S128x512x256 (![] : Fin 0 → Fin S128x512x256.rank)
  bcast_S_S128x512x512 : S_.BroadcastsInDim S128x512x512 (![] : Fin 0 → Fin S128x512x512.rank)
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x256_S256x256_S128x512x256_2_0_01_1_n_n_wf : DotDims.WF S128x512x256 S256x256 S128x512x256 [2] [0] [0, 1] [1] [] []
  dot_S128x512x256_S128x512x256_S128x512x512_2_2_1_1_0_0_wf : DotDims.WF S128x512x256 S128x512x256 S128x512x512 [2] [2] [1] [1] [0] [0]
  dot_S128x512x512_S128x512x256_S128x512x256_2_1_1_2_0_0_wf : DotDims.WF S128x512x512 S128x512x256 S128x512x256 [2] [1] [1] [2] [0] [0]

variable [Facts₀]

def dot_S128x512x256_S256x256_S128x512x256_2_0_01_1_n_n : DotDims S128x512x256 S256x256 S128x512x256 where
  lhsContracting := [2]
  rhsContracting := [0]
  lhsNonContracting := [0, 1]
  rhsNonContracting := [1]
  lhsBatch := []
  rhsBatch := []
  wf := dot_S128x512x256_S256x256_S128x512x256_2_0_01_1_n_n_wf
def dot_S128x512x256_S128x512x256_S128x512x512_2_2_1_1_0_0 : DotDims S128x512x256 S128x512x256 S128x512x512 where
  lhsContracting := [2]
  rhsContracting := [2]
  lhsNonContracting := [1]
  rhsNonContracting := [1]
  lhsBatch := [0]
  rhsBatch := [0]
  wf := dot_S128x512x256_S128x512x256_S128x512x512_2_2_1_1_0_0_wf
def dot_S128x512x512_S128x512x256_S128x512x256_2_1_1_2_0_0 : DotDims S128x512x512 S128x512x256 S128x512x256 where
  lhsContracting := [2]
  rhsContracting := [1]
  lhsNonContracting := [1]
  rhsNonContracting := [2]
  lhsBatch := [0]
  rhsBatch := [0]
  wf := dot_S128x512x512_S128x512x256_S128x512x256_2_1_1_2_0_0_wf

class Facts : Prop extends Facts₀ where

variable [Facts]
-- ==== Proof.K.Entry.lean ====
/-
  The kernel's program up to its one pallas_call, and the pipeline's windows.

  @main first concatenates the three projection matrices (columns 0–255 the value projection, 256–511 the key
  projection, 512–767 the query projection) and the three bias vectors in the same order, then launches the
  attention kernel on a grid of 16 points, eight batch entries per point. This module states what core `c`'s
  buffers hold when the region is entered (`V`: the launch contents with the two concatenations written), that
  no argument array is written by the two host lines, what block of its array each window holds at a point
  (`iblk`), that an input window's current staging buffer holds that block at every point whether or not the
  pipeline fetched it there, and how the frame claim's post is read off the launch theorem's.
-/
import proofs.«406869_j18743237280566_3_alg».proof.Proof.Gen.Kernel.Launch
import proofs.«406869_j18743237280566_3_alg».proof.Proof.Gen.Kernel.Skeleton
import proofs.«406869_j18743237280566_3_alg».proof.Proof.Gen.Kernel.Loops
import proofs.«406869_j18743237280566_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the two concatenations. -/
abbrev V (c : Dev nD) (b : Ref sig .tc) : Buf (Elt F) ((c : Thread nD τ).loc b) := StableHlo.after hostOps0 (fun b => m (c, b)) b

/-- Neither concatenation allocates. -/
theorem hostOps0_fresh : (hostOps0 : List (HloOp τ sig (Elt F))).Forall fun op => op.fresh = ∅ := by
  simp only [List.Forall]; repeat' constructor

/-- @main up to the region: the two host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is neither concatenation's result is found by the region as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)
theorem V_main_arg5 (c : Dev nD) : V m c main_arg5 = m ((c : Thread nD τ).loc main_arg5) := V_of_ne m c _ (by decide) (by decide)
theorem V_main_arg6 (c : Dev nD) : V m c main_arg6 = m ((c : Thread nD τ).loc main_arg6) := V_of_ne m c _ (by decide) (by decide)
theorem V_main_arg7 (c : Dev nD) : V m c main_arg7 = m ((c : Thread nD τ).loc main_arg7) := V_of_ne m c _ (by decide) (by decide)
theorem V_main_arg8 (c : Dev nD) : V m c main_arg8 = m ((c : Thread nD τ).loc main_arg8) := V_of_ne m c _ (by decide) (by decide)
theorem V_main_arg9 (c : Dev nD) : V m c main_arg9 = m ((c : Thread nD τ).loc main_arg9) := V_of_ne m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window the
    pipeline does not fetch at a point has not moved its block index since it last did), for any proof data whose
    array is the region-entry contents and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of the output window, through which its contents are stated (the choice does not matter). -/
abbrev VO0_6 : View sig .tc .vmem S8x512x256 .f32 := (Memref.whole cc0_stg6_0 : Memref sig .tc .vmem S8x512x256 .f32).view
/-- Each window's current staging memref at point `t`, spelled as the pipeline passes it, and its wholeness. -/
abbrev ms0_0 (t : Fin cfg0.N) : Memref sig .tc .vmem S8x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512x256 .f32 := win0_6.stage (cfg0.slots t 6)
abbrev hs0_6 (t : Fin cfg0.N) : (ms0_6 t).IsWhole := hstage0_6 ((cfg0.slots t 6).cast nbuf0_6)

end Cert.Kernel.Fr

end
-- ==== Proof.K.BodyRun.lean ====
/-
  The attention kernel's body on any whole staging memrefs: with the six input windows' buffers at given
  contents and the output window's buffer at anything, the body runs to its end, leaves the inputs as they
  were, and leaves in the output buffer a list of pieces written over its prior contents. The body loads the
  two weight blocks and the two bias blocks once, then loops over the eight batch entries of the point; each
  trip loads that entry's rows of the activations and of the mask and stores that entry's rows of the result.
  The piece list is found by the symbolic run (it is the loop's pieces of all eight trips), not written here.
-/
import proofs.«406869_j18743237280566_3_alg».proof.Proof.K.Entry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window's staging memref (last first), with the proof that
    from whole staging memrefs — the inputs' at their contents, the output's at anything — the body runs to a
    continuation that holds the inputs' as they were and the output's with those pieces written. -/
noncomputable def kernelRun0 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) :
    { L6 : List (View.Piece (Elt F) S8x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__attn_kernel i arg1 harg1 arg2 harg2 arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.Fr

end
-- ==== Proof.K.Frame.lean ====
/-
  The kernel's frame: the program runs to its end without a fault and leaves every argument array as it
  was launched.

  Each grid point's body leaves in the output window's staging buffer eight stores, one per batch entry of the
  point, each of one whole [1,512,256] slab; the eight slabs tile the [8,512,256] block, so whatever the buffer
  held before, it holds the stores' values afterwards (`out0_6`). The pipeline's proof data names the region-entry
  contents of each window's array, says that every input window's buffer holds its block after the body as before
  it, and that the output window's buffer holds `outsAt0`. The body obligation at a point is then the body's
  run, and the launch theorem gives the run of @main; the frame is read off its post: a staged argument is never
  written back, and an argument no window stages (the six arrays the two concatenations read) is not touched.
-/
import proofs.«406869_j18743237280566_3_alg».proof.Proof.K.BodyRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's eight stores tile the output block, so they cover it. -/
theorem cover0_6 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) (y : S8x512x256.Idx) :
    ∃ pc ∈ (kernelRun0 c i arg1 harg1 arg2 harg2 arg3 harg3 arg4 harg4 arg5 harg5 arg6 harg6 arg7 harg7 x0 x1 x2 x3 x4 x5).1, y ∈ pc.1.set :=
  View.cover_of_tiledL (kernelRun0 c i arg1 harg1 arg2 harg2 arg3 harg3 arg4 harg4 arg5 harg5 arg6 harg6 arg7 harg7 x0 x1 x2 x3 x4 x5).1 S1x512x256.size (by sl_kernel_rfl) y

/-- What the body leaves in the output window's staging buffer: its stores read back (over anything). -/
def out0_6 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) : Vec F S8x512x256 .f32 :=
  VO0_6.read (Elt F) (VO0_6.writes (Elt F) VO0_6.junk (kernelRun0 c i arg1 harg1 arg2 harg2 arg3 harg3 arg4 harg4 arg5 harg5 arg6 harg6 arg7 harg7 x0 x1 x2 x3 x4 x5).1)

/-- What the output window's staging buffer holds after the body at point `t`. -/
def outsAt0 (c : Dev nD) (t : Fin cfg0.N) : Vec F S8x512x256 .f32 :=
  out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-! ## The pipeline's proof data -/

/-- On core `c`: the arrays as the region finds them; after the body at point `t` each input's buffer at its
    block and the output's at `outsAt0`; the invariant the scoped rest and the generator register; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' buffers hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_6 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame run's post read at the ten argument arrays: a staged argument by the library's reading of an input
    window's array, an argument no window stages by the post's second clause; each is then the launch contents
    because neither concatenation writes it. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).1 4).trans (((dats m 0 c).arrAt_in 4 rfl _).trans ((A_eq m c 4).trans (V_main_arg8 m c))),
   ((h c).1 5).trans (((dats m 0 c).arrAt_in 5 rfl _).trans ((A_eq m c 5).trans (V_main_arg9 m c)))⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept m r h c) (run_main m ρ)

end Cert.Kernel.Fr

end
-- ==== Proof.KI.Entry.lean ====
/-
  The idealized kernel's program up to its one pallas_call, and the pipeline's windows.

  @main first concatenates the three projection matrices (columns 0–255 the value projection, 256–511 the key
  projection, 512–767 the query projection) and the three bias vectors in the same order, then launches the
  attention kernel on a grid of 16 points, eight batch entries per point. This module states what core `c`'s
  buffers hold when the region is entered (`V`: the launch contents with the two concatenations written), that
  no argument array is written by the two host lines, what block of its array each window holds at a point
  (`iblk`), that an input window's current staging buffer holds that block at every point whether or not the
  pipeline fetched it there, and how the frame claim's post is read off the launch theorem's.
-/
import proofs.«406869_j18743237280566_3_alg».proof.Proof.Gen.KernelIdeal.Launch
import proofs.«406869_j18743237280566_3_alg».proof.Proof.Gen.KernelIdeal.Skeleton
import proofs.«406869_j18743237280566_3_alg».proof.Proof.Gen.KernelIdeal.Loops
import proofs.«406869_j18743237280566_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the two concatenations. -/
abbrev V (c : Dev nD) (b : Ref sig .tc) : Buf (Elt F) ((c : Thread nD τ).loc b) := StableHlo.after hostOps0 (fun b => m (c, b)) b

/-- Neither concatenation allocates. -/
theorem hostOps0_fresh : (hostOps0 : List (HloOp τ sig (Elt F))).Forall fun op => op.fresh = ∅ := by
  simp only [List.Forall]; repeat' constructor

/-- @main up to the region: the two host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is neither concatenation's result is found by the region as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)
theorem V_main_arg5 (c : Dev nD) : V m c main_arg5 = m ((c : Thread nD τ).loc main_arg5) := V_of_ne m c _ (by decide) (by decide)
theorem V_main_arg6 (c : Dev nD) : V m c main_arg6 = m ((c : Thread nD τ).loc main_arg6) := V_of_ne m c _ (by decide) (by decide)
theorem V_main_arg7 (c : Dev nD) : V m c main_arg7 = m ((c : Thread nD τ).loc main_arg7) := V_of_ne m c _ (by decide) (by decide)
theorem V_main_arg8 (c : Dev nD) : V m c main_arg8 = m ((c : Thread nD τ).loc main_arg8) := V_of_ne m c _ (by decide) (by decide)
theorem V_main_arg9 (c : Dev nD) : V m c main_arg9 = m ((c : Thread nD τ).loc main_arg9) := V_of_ne m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window the
    pipeline does not fetch at a point has not moved its block index since it last did), for any proof data whose
    array is the region-entry contents and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of the output window, through which its contents are stated (the choice does not matter). -/
abbrev VO0_6 : View sig .tc .vmem S8x512x256 .f32 := (Memref.whole cc0_stg6_0 : Memref sig .tc .vmem S8x512x256 .f32).view
/-- Each window's current staging memref at point `t`, spelled as the pipeline passes it, and its wholeness. -/
abbrev ms0_0 (t : Fin cfg0.N) : Memref sig .tc .vmem S8x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512x256 .f32 := win0_6.stage (cfg0.slots t 6)
abbrev hs0_6 (t : Fin cfg0.N) : (ms0_6 t).IsWhole := hstage0_6 ((cfg0.slots t 6).cast nbuf0_6)

end Cert.KernelIdeal.Fr

end
-- ==== Proof.KI.BodyRun.lean ====
/-
  The attention kernel's body on any whole staging memrefs: with the six input windows' buffers at given
  contents and the output window's buffer at anything, the body runs to its end, leaves the inputs as they
  were, and leaves in the output buffer a list of pieces written over its prior contents. The body loads the
  two weight blocks and the two bias blocks once, then loops over the eight batch entries of the point; each
  trip loads that entry's rows of the activations and of the mask and stores that entry's rows of the result.
  The piece list is found by the symbolic run (it is the loop's pieces of all eight trips), not written here.
-/
import proofs.«406869_j18743237280566_3_alg».proof.Proof.KI.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window's staging memref (last first), with the proof that
    from whole staging memrefs — the inputs' at their contents, the output's at anything — the body runs to a
    continuation that holds the inputs' as they were and the output's with those pieces written. -/
noncomputable def kernelRun0 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) :
    { L6 : List (View.Piece (Elt F) S8x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0__attn_kernel i arg1 harg1 arg2 harg2 arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Fr

end
-- ==== Proof.KI.Frame.lean ====
/-
  The idealized kernel's frame: the program runs to its end without a fault and leaves every argument array as it
  was launched.

  Each grid point's body leaves in the output window's staging buffer eight stores, one per batch entry of the
  point, each of one whole [1,512,256] slab; the eight slabs tile the [8,512,256] block, so whatever the buffer
  held before, it holds the stores' values afterwards (`out0_6`). The pipeline's proof data names the region-entry
  contents of each window's array, says that every input window's buffer holds its block after the body as before
  it, and that the output window's buffer holds `outsAt0`. The body obligation at a point is then the body's
  run, and the launch theorem gives the run of @main; the frame is read off its post: a staged argument is never
  written back, and an argument no window stages (the six arrays the two concatenations read) is not touched.
-/
import proofs.«406869_j18743237280566_3_alg».proof.Proof.KI.BodyRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's eight stores tile the output block, so they cover it. -/
theorem cover0_6 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) (y : S8x512x256.Idx) :
    ∃ pc ∈ (kernelRun0 c i arg1 harg1 arg2 harg2 arg3 harg3 arg4 harg4 arg5 harg5 arg6 harg6 arg7 harg7 x0 x1 x2 x3 x4 x5).1, y ∈ pc.1.set :=
  View.cover_of_tiledL (kernelRun0 c i arg1 harg1 arg2 harg2 arg3 harg3 arg4 harg4 arg5 harg5 arg6 harg6 arg7 harg7 x0 x1 x2 x3 x4 x5).1 S1x512x256.size (by sl_kernel_rfl) y

/-- What the body leaves in the output window's staging buffer: its stores read back (over anything). -/
def out0_6 (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) : Vec F S8x512x256 .f32 :=
  VO0_6.read (Elt F) (VO0_6.writes (Elt F) VO0_6.junk (kernelRun0 c i arg1 harg1 arg2 harg2 arg3 harg3 arg4 harg4 arg5 harg5 arg6 harg6 arg7 harg7 x0 x1 x2 x3 x4 x5).1)

/-- What the output window's staging buffer holds after the body at point `t`. -/
def outsAt0 (c : Dev nD) (t : Fin cfg0.N) : Vec F S8x512x256 .f32 :=
  out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-! ## The pipeline's proof data -/

/-- On core `c`: the arrays as the region finds them; after the body at point `t` each input's buffer at its
    block and the output's at `outsAt0`; the invariant the scoped rest and the generator register; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' buffers hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_6 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame run's post read at the ten argument arrays: a staged argument by the library's reading of an input
    window's array, an argument no window stages by the post's second clause; each is then the launch contents
    because neither concatenation writes it. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).1 4).trans (((dats m 0 c).arrAt_in 4 rfl _).trans ((A_eq m c 4).trans (V_main_arg8 m c))),
   ((h c).1 5).trans (((dats m 0 c).arrAt_in 5 rfl _).trans ((A_eq m c 5).trans (V_main_arg9 m c)))⟩

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept m r h c) (run_main m ρ)

end Cert.KernelIdeal.Fr

end
-- ==== Proof.KI.Pieces.lean ====
/-
  What the body's eight stores are, and how the output block reads back from them.

  Trip `k` of the body's loop stores ONE piece into the output window's buffer: at the unit-stride rectangle of
  extents [1,512,256] whose leading offset is `k`, the clamped output projection of batch entry `k` of the point,
  computed from the weights and biases loaded before the loop and from entry `k`'s rows of the activations and of
  the mask. So if every such piece is the restriction to its rectangle of ONE function `G` of the block's index,
  the block reads back as `G` everywhere (the eight rectangles tile it).
-/
import proofs.«406869_j18743237280566_3_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rectangle trip `k` stores through. -/
abbrev storeRect (k : Fin k0_t1_loop.trips) : Rect S8x512x256 :=
  Rect.unit (s := S8x512x256) (k0_off1 k) S1x512x256.size (k0_off1_inb k)

/-- The value trip `k` stores: the body's arithmetic on entry `k`'s rows of the two staged blocks. -/
abbrev storeVal (arg1 : Memref sig .tc .vmem S8x512x256 .f32) (arg2 : Memref sig .tc .vmem S8x512x512 .f32) (v0 : Vec F S256x768 .f32) (v3 : Vec F S256x256 .f32) (v5 : Vec F S768 .f32) (v7 : Vec F S256 .f32) (X_arg1 : BufTy.Contents (Elt F) arg1.view.ty) (X_arg2 : BufTy.Contents (Elt F) arg2.view.ty)
    (k : Fin k0_t1_loop.trips) : FVec F S1x512x256 .f32 :=
  k0_pay4 (k0_pay5 (k0_pay1 v0) (k0_pay2 v3) (k0_pay3 v5) v7
    (View.readAt (Elt F) arg1.view (Rect.unit (s := S8x512x256) (k0_off1 k) S1x512x256.size (k0_off1_inb k)).toLoadRect X_arg1)
    (View.readAt (Elt F) arg2.view (Rect.unit (s := S8x512x512) (k0_off2 k) S1x512x512.size (k0_off2_inb k)).toLoadRect X_arg2)) k0_pay6

/-- One trip's piece list is that one piece. -/
theorem tripL_eq (𝒱 : Variants) (c : Dev nD) (bd : Option 𝒱.V) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole) (v0 : Vec F S256x768 .f32) (v3 : Vec F S256x256 .f32) (v5 : Vec F S768 .f32) (v7 : Vec F S256 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 v0 v3 v5 v7 X_arg1 X_arg2 k
      = [⟨storeRect k, storeVal arg1 arg2 v0 v3 v5 v7 X_arg1 X_arg2 k⟩] := by
  unfold tripL_k0_t1 trip_k0_t1
  dsimp only
  sl_unfold_words
  rfl

/-- Every piece of the trips before `n` is some trip's piece. -/
theorem mem_pb (𝒱 : Variants) (c : Dev nD) (bd : Option 𝒱.V) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole) (v0 : Vec F S256x768 .f32) (v3 : Vec F S256x256 .f32) (v5 : Vec F S768 .f32) (v7 : Vec F S256 .f32) (X_arg1 : BufTy.Contents (Elt F) arg1.view.ty) (X_arg2 : BufTy.Contents (Elt F) arg2.view.ty) :
    ∀ (n : ℕ), n ≤ k0_t1_loop.trips → ∀ p ∈ pb_k0_t1 (F := F) 𝒱 c bd i arg1 harg1 arg2 harg2 arg3 harg3 arg4 harg4 arg5 harg5 arg6 harg6 arg7 harg7 v0 v3 v5 v7 X_arg1 X_arg2 n,
      ∃ k : Fin k0_t1_loop.trips, p = ⟨storeRect k, storeVal arg1 arg2 v0 v3 v5 v7 X_arg1 X_arg2 k⟩
  | 0, _, p, hp => by
    rw [pb_k0_t1.eq_1] at hp
    exact absurd hp List.not_mem_nil
  | n + 1, hn, p, hp => by
    rw [show n + 1 = (⟨n, hn⟩ : Fin k0_t1_loop.trips).val + 1 from rfl, pb_k0_t1_succ, tripL_eq] at hp
    rcases List.mem_append.mp hp with h | h
    · exact ⟨⟨n, hn⟩, List.mem_singleton.mp h⟩
    · exact mem_pb 𝒱 c bd i arg1 harg1 arg2 harg2 arg3 harg3 arg4 harg4 arg5 harg5 arg6 harg6 arg7 harg7 v0 v3 v5 v7 X_arg1 X_arg2 n (Nat.le_of_succ_le hn) p h

/-- The body's piece list is the loop's, of all its trips. -/
theorem kernelRun0_pieces (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) :
    (kernelRun0 c i arg1 harg1 arg2 harg2 arg3 harg3 arg4 harg4 arg5 harg5 arg6 harg6 arg7 harg7 x0 x1 x2 x3 x4 x5).1
      = pb_k0_t1 (F := F) Variants.none c none i arg1 harg1 arg2 harg2 arg3 harg3 arg4 harg4 arg5 harg5 arg6 harg6 arg7 harg7
          (View.readAt (Elt F) arg3.view (Rect.unit (s := S256x768) ![0, 0] S256x768.size inb_S256x768_S256x768_0_0).toLoadRect (harg3.unread x2))
          (View.readAt (Elt F) arg5.view (Rect.unit (s := S256x256) ![0, 0] S256x256.size inb_S256x256_S256x256_0_0).toLoadRect (harg5.unread x4))
          (View.readAt (Elt F) arg4.view (Rect.unit (s := S768) ![0] S768.size inb_S768_S768_0).toLoadRect (harg4.unread x3))
          (View.readAt (Elt F) arg6.view (Rect.unit (s := S256) ![0] S256.size inb_S256_S256_0).toLoadRect (harg6.unread x5))
          (harg1.unread x0) (harg2.unread x1) k0_t1_loop.trips := by
  unfold kernelRun0
  rfl

/-- THE OUTPUT BLOCK READ BACK: if each trip's stored value is `G` restricted to the trip's rectangle, the block the
    body leaves is `G`. -/
theorem out0_6_eq (c : Dev nD) (i : grid0.Coords) (arg1 : Memref sig .tc .vmem S8x512x256 .f32) (harg1 : arg1.IsWhole) (arg2 : Memref sig .tc .vmem S8x512x512 .f32) (harg2 : arg2.IsWhole) (arg3 : Memref sig .tc .vmem S256x768 .f32) (harg3 : arg3.IsWhole) (arg4 : Memref sig .tc .vmem S768 .f32) (harg4 : arg4.IsWhole) (arg5 : Memref sig .tc .vmem S256x256 .f32) (harg5 : arg5.IsWhole) (arg6 : Memref sig .tc .vmem S256 .f32) (harg6 : arg6.IsWhole) (arg7 : Memref sig .tc .vmem S8x512x256 .f32) (harg7 : arg7.IsWhole)
    (x0 : Vec F S8x512x256 .f32) (x1 : Vec F S8x512x512 .f32) (x2 : Vec F S256x768 .f32) (x3 : Vec F S768 .f32) (x4 : Vec F S256x256 .f32) (x5 : Vec F S256 .f32) (G : S8x512x256.Idx → Elt F .f32)
    (hG : ∀ (k : Fin k0_t1_loop.trips) (x : (storeRect k).shape.Idx),
      storeVal arg1 arg2
        (View.readAt (Elt F) arg3.view (Rect.unit (s := S256x768) ![0, 0] S256x768.size inb_S256x768_S256x768_0_0).toLoadRect (harg3.unread x2))
        (View.readAt (Elt F) arg5.view (Rect.unit (s := S256x256) ![0, 0] S256x256.size inb_S256x256_S256x256_0_0).toLoadRect (harg5.unread x4))
        (View.readAt (Elt F) arg4.view (Rect.unit (s := S768) ![0] S768.size inb_S768_S768_0).toLoadRect (harg4.unread x3))
        (View.readAt (Elt F) arg6.view (Rect.unit (s := S256) ![0] S256.size inb_S256_S256_0).toLoadRect (harg6.unread x5))
        (harg1.unread x0) (harg2.unread x1) k x = G ((storeRect k).emb x)) :
    out0_6 c i arg1 harg1 arg2 harg2 arg3 harg3 arg4 harg4 arg5 harg5 arg6 harg6 arg7 harg7 x0 x1 x2 x3 x4 x5 = G := by
  unfold out0_6
  rw [View.read_writes_eq_canon _ _ _ (cover0_6 c i arg1 harg1 arg2 harg2 arg3 harg3 arg4 harg4 arg5 harg5 arg6 harg6 arg7 harg7 x0 x1 x2 x3 x4 x5)]
  funext y
  refine View.canon_apply_of_pieces G _ (fun p hp x => ?_) y (cover0_6 c i arg1 harg1 arg2 harg2 arg3 harg3 arg4 harg4 arg5 harg5 arg6 harg6 arg7 harg7 x0 x1 x2 x3 x4 x5 y)
  rw [kernelRun0_pieces] at hp
  obtain ⟨k, rfl⟩ := mem_pb _ _ _ _ arg1 harg1 arg2 harg2 arg3 harg3 arg4 harg4 arg5 harg5 arg6 harg6 arg7 harg7 _ _ _ _ _ _ _ (le_refl _) p hp
  exact hG k x

end Cert.KernelIdeal.Fr

end
-- ==== Proof.KI.Blocks.lean ====
/-
  Where the windows' blocks and the body's loads sit in the arrays.

  The grid has 16 points. The activations, the mask and the result move eight batch entries per point: the block at
  point `t` is rows `8 t … 8 t + 7` of the leading axis, whole on the other two axes, so entry `g` of the block is
  entry `8 t + g` of the array. The concatenated weights, the concatenated biases, the last projection's weights and
  its biases are one block each, the whole array, at every point. Inside the body, trip `k` of the loop over the
  eight entries loads and stores row `k` of a staged block, whole on the other two axes, and the four whole-array
  operands are loaded whole.
-/
import proofs.«406869_j18743237280566_3_alg».proof.Proof.KI.Entry
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices, decided once over the grid -/

/-- The three moving windows sit at block index `(t, 0, 0)`; the four whole-array windows at block index zero. -/
theorem blk_idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-! ## Where a block's element sits in its array -/

theorem blk0_emb (t : Fin cfg0.N) (g : Fin 8) (n : Fin 512) (d : Fin 256) (b : Fin 128) (hb : b.val = 8 * t.val + g.val) :
    ((cfg0.win 0).blk t).view.emb (ix3 g n d) = ix3 b n d := by
  obtain ⟨e0, e1, e2, -⟩ := blk_idx_facts t
  funext a; apply Fin.ext
  match a with
  | ⟨0, _⟩ => show win0_0.index t (0 : Fin 3) * 8 + 1 * g.val = b.val; omega
  | ⟨1, _⟩ => show win0_0.index t (1 : Fin 3) * 512 + 1 * n.val = n.val; omega
  | ⟨2, _⟩ => show win0_0.index t (2 : Fin 3) * 256 + 1 * d.val = d.val; omega

theorem iblk0_apply (c : Dev nD) (t : Fin cfg0.N) (g : Fin 8) (n : Fin 512) (d : Fin 256) (b : Fin 128)
    (hb : b.val = 8 * t.val + g.val) :
    iblk m c 0 t (ix3 g n d) = (m ((c : Thread nD τ).loc main_arg0)) (ix3 b n d) := by
  show V m c main_arg0 (((cfg0.win 0).blk t).view.emb (ix3 g n d)) = _
  rw [blk0_emb t g n d b hb, V_main_arg0]

theorem blk1_emb (t : Fin cfg0.N) (g : Fin 8) (n k : Fin 512) (b : Fin 128) (hb : b.val = 8 * t.val + g.val) :
    ((cfg0.win 1).blk t).view.emb (ix3 g n k) = ix3 b n k := by
  obtain ⟨-, -, -, e0, e1, e2, -⟩ := blk_idx_facts t
  funext a; apply Fin.ext
  match a with
  | ⟨0, _⟩ => show win0_1.index t (0 : Fin 3) * 8 + 1 * g.val = b.val; omega
  | ⟨1, _⟩ => show win0_1.index t (1 : Fin 3) * 512 + 1 * n.val = n.val; omega
  | ⟨2, _⟩ => show win0_1.index t (2 : Fin 3) * 512 + 1 * k.val = k.val; omega

theorem iblk1_apply (c : Dev nD) (t : Fin cfg0.N) (g : Fin 8) (n k : Fin 512) (b : Fin 128)
    (hb : b.val = 8 * t.val + g.val) :
    iblk m c 1 t (ix3 g n k) = (m ((c : Thread nD τ).loc main_arg1)) (ix3 b n k) := by
  show V m c main_arg1 (((cfg0.win 1).blk t).view.emb (ix3 g n k)) = _
  rw [blk1_emb t g n k b hb, V_main_arg1]

theorem blk2_emb (t : Fin cfg0.N) (d : Fin 256) (cc : Fin 768) :
    ((cfg0.win 2).blk t).view.emb (ix2 d cc) = ix2 d cc := by
  obtain ⟨-, -, -, -, -, -, -, -, -, e0, e1, -⟩ := blk_idx_facts t
  funext a; apply Fin.ext
  match a with
  | ⟨0, _⟩ => show win0_2.index t (0 : Fin 2) * 256 + 1 * d.val = d.val; omega
  | ⟨1, _⟩ => show win0_2.index t (1 : Fin 2) * 768 + 1 * cc.val = cc.val; omega

theorem iblk2_apply (c : Dev nD) (t : Fin cfg0.N) (d : Fin 256) (cc : Fin 768) :
    iblk m c 2 t (ix2 d cc) = V m c main_v0 (ix2 d cc) := by
  show V m c main_v0 (((cfg0.win 2).blk t).view.emb (ix2 d cc)) = _
  rw [blk2_emb t d cc]

theorem blk3_emb (t : Fin cfg0.N) (cc : Fin 768) : ((cfg0.win 3).blk t).view.emb (ix1 cc) = ix1 cc := by
  obtain ⟨-, -, -, -, -, -, -, -, -, -, -, e0, -⟩ := blk_idx_facts t
  funext a; apply Fin.ext
  match a with
  | ⟨0, _⟩ => show win0_3.index t (0 : Fin 1) * 768 + 1 * cc.val = cc.val; omega

theorem iblk3_apply (c : Dev nD) (t : Fin cfg0.N) (cc : Fin 768) :
    iblk m c 3 t (ix1 cc) = V m c main_v1 (ix1 cc) := by
  show V m c main_v1 (((cfg0.win 3).blk t).view.emb (ix1 cc)) = _
  rw [blk3_emb t cc]

theorem blk4_emb (t : Fin cfg0.N) (h j : Fin 256) : ((cfg0.win 4).blk t).view.emb (ix2 h j) = ix2 h j := by
  obtain ⟨-, -, -, -, -, -, -, -, -, -, -, -, e0, e1, -⟩ := blk_idx_facts t
  funext a; apply Fin.ext
  match a with
  | ⟨0, _⟩ => show win0_4.index t (0 : Fin 2) * 256 + 1 * h.val = h.val; omega
  | ⟨1, _⟩ => show win0_4.index t (1 : Fin 2) * 256 + 1 * j.val = j.val; omega

theorem iblk4_apply (c : Dev nD) (t : Fin cfg0.N) (h j : Fin 256) :
    iblk m c 4 t (ix2 h j) = (m ((c : Thread nD τ).loc main_arg8)) (ix2 h j) := by
  show V m c main_arg8 (((cfg0.win 4).blk t).view.emb (ix2 h j)) = _
  rw [blk4_emb t h j, V_main_arg8]

theorem blk5_emb (t : Fin cfg0.N) (j : Fin 256) : ((cfg0.win 5).blk t).view.emb (ix1 j) = ix1 j := by
  obtain ⟨-, -, -, -, -, -, -, -, -, -, -, -, -, -, e0⟩ := blk_idx_facts t
  funext a; apply Fin.ext
  match a with
  | ⟨0, _⟩ => show win0_5.index t (0 : Fin 1) * 256 + 1 * j.val = j.val; omega

theorem iblk5_apply (c : Dev nD) (t : Fin cfg0.N) (j : Fin 256) :
    iblk m c 5 t (ix1 j) = (m ((c : Thread nD τ).loc main_arg9)) (ix1 j) := by
  show V m c main_arg9 (((cfg0.win 5).blk t).view.emb (ix1 j)) = _
  rw [blk5_emb t j, V_main_arg9]

theorem blk6_emb (t : Fin cfg0.N) (g : Fin 8) (n : Fin 512) (j : Fin 256) (b : Fin 128) (hb : b.val = 8 * t.val + g.val) :
    ((cfg0.win 6).blk t).view.emb (ix3 g n j) = ix3 b n j := by
  obtain ⟨-, -, -, -, -, -, e0, e1, e2, -⟩ := blk_idx_facts t
  funext a; apply Fin.ext
  match a with
  | ⟨0, _⟩ => show win0_6.index t (0 : Fin 3) * 8 + 1 * g.val = b.val; omega
  | ⟨1, _⟩ => show win0_6.index t (1 : Fin 3) * 512 + 1 * n.val = n.val; omega
  | ⟨2, _⟩ => show win0_6.index t (2 : Fin 3) * 256 + 1 * j.val = j.val; omega

/-! ## The body's accesses -/

/-- Trip `k`'s rectangle of a staged block of the activations (and of the result) is its row `k`. -/
theorem storeRect_emb (k : Fin k0_t1_loop.trips) (g : Fin 8) (hg : g.val = k.val) (n : Fin 512) (j : Fin 256) :
    (Rect.unit (s := S8x512x256) (k0_off1 k) S1x512x256.size (k0_off1_inb k)).emb (ix3 (0 : Fin 1) n j) = ix3 g n j := by
  have ho := k0_off1_eq k
  have h0 : k0_off1 k (0 : Fin 3) = k.val := congrFun ho 0
  have h1 : k0_off1 k (1 : Fin 3) = 0 := congrFun ho 1
  have h2 : k0_off1 k (2 : Fin 3) = 0 := congrFun ho 2
  funext a; apply Fin.ext
  match a with
  | ⟨0, _⟩ => show k0_off1 k (0 : Fin 3) + 1 * (0 : Fin 1).val = g.val; rw [h0]; show k.val + 1 * 0 = g.val; omega
  | ⟨1, _⟩ => show k0_off1 k (1 : Fin 3) + 1 * n.val = n.val; omega
  | ⟨2, _⟩ => show k0_off1 k (2 : Fin 3) + 1 * j.val = j.val; omega

/-- Trip `k`'s rectangle of a staged block of the mask is its row `k`. -/
theorem loadRect1_emb (k : Fin k0_t1_loop.trips) (g : Fin 8) (hg : g.val = k.val) (n k' : Fin 512) :
    (Rect.unit (s := S8x512x512) (k0_off2 k) S1x512x512.size (k0_off2_inb k)).emb (ix3 (0 : Fin 1) n k') = ix3 g n k' := by
  have ho := k0_off2_eq k
  have h0 : k0_off2 k (0 : Fin 3) = k.val := congrFun ho 0
  have h1 : k0_off2 k (1 : Fin 3) = 0 := congrFun ho 1
  have h2 : k0_off2 k (2 : Fin 3) = 0 := congrFun ho 2
  funext a; apply Fin.ext
  match a with
  | ⟨0, _⟩ => show k0_off2 k (0 : Fin 3) + 1 * (0 : Fin 1).val = g.val; rw [h0]; show k.val + 1 * 0 = g.val; omega
  | ⟨1, _⟩ => show k0_off2 k (1 : Fin 3) + 1 * n.val = n.val; omega
  | ⟨2, _⟩ => show k0_off2 k (2 : Fin 3) + 1 * k'.val = k'.val; omega

theorem load_rows0 (arg1 : Memref sig .tc .vmem S8x512x256 .f32) (harg1 : arg1.IsWhole) (X : Vec F S8x512x256 .f32)
    (k : Fin k0_t1_loop.trips) (g : Fin 8) (hg : g.val = k.val) (n : Fin 512) (d : Fin 256) :
    View.readAt (Elt F) arg1.view (Rect.unit (s := S8x512x256) (k0_off1 k) S1x512x256.size (k0_off1_inb k)).toLoadRect
      (harg1.unread X) (ix3 (0 : Fin 1) n d) = X (ix3 g n d) :=
  (congrFun (harg1.read_unread X) _).trans (congrArg X (storeRect_emb k g hg n d))

theorem load_rows1 (arg2 : Memref sig .tc .vmem S8x512x512 .f32) (harg2 : arg2.IsWhole) (X : Vec F S8x512x512 .f32)
    (k : Fin k0_t1_loop.trips) (g : Fin 8) (hg : g.val = k.val) (n k' : Fin 512) :
    View.readAt (Elt F) arg2.view (Rect.unit (s := S8x512x512) (k0_off2 k) S1x512x512.size (k0_off2_inb k)).toLoadRect
      (harg2.unread X) (ix3 (0 : Fin 1) n k') = X (ix3 g n k') :=
  (congrFun (harg2.read_unread X) _).trans (congrArg X (loadRect1_emb k g hg n k'))

private theorem hz1 : (![0] : Fin 1 → Nat) = fun _ => 0 := funext fun a => by fin_cases a <;> rfl
private theorem hz2 : (![0, 0] : Fin 2 → Nat) = fun _ => 0 := funext fun a => by fin_cases a <;> rfl

theorem load_whole2 (arg3 : Memref sig .tc .vmem S256x768 .f32) (harg3 : arg3.IsWhole) (X : Vec F S256x768 .f32) :
    View.readAt (Elt F) arg3.view (Rect.unit (s := S256x768) ![0, 0] S256x768.size inb_S256x768_S256x768_0_0).toLoadRect
      (harg3.unread X) = X := by
  simp only [View.readAt_eq_ld, harg3.read_unread, View.ld_unit_zero (S := S256x768) hz2]

theorem load_whole3 (arg4 : Memref sig .tc .vmem S768 .f32) (harg4 : arg4.IsWhole) (X : Vec F S768 .f32) :
    View.readAt (Elt F) arg4.view (Rect.unit (s := S768) ![0] S768.size inb_S768_S768_0).toLoadRect
      (harg4.unread X) = X := by
  simp only [View.readAt_eq_ld, harg4.read_unread, View.ld_unit_zero (S := S768) hz1]

theorem load_whole4 (arg5 : Memref sig .tc .vmem S256x256 .f32) (harg5 : arg5.IsWhole) (X : Vec F S256x256 .f32) :
    View.readAt (Elt F) arg5.view (Rect.unit (s := S256x256) ![0, 0] S256x256.size inb_S256x256_S256x256_0_0).toLoadRect
      (harg5.unread X) = X := by
  simp only [View.readAt_eq_ld, harg5.read_unread, View.ld_unit_zero (S := S256x256) hz2]

theorem load_whole5 (arg6 : Memref sig .tc .vmem S256 .f32) (harg6 : arg6.IsWhole) (X : Vec F S256 .f32) :
    View.readAt (Elt F) arg6.view (Rect.unit (s := S256) ![0] S256.size inb_S256_S256_0).toLoadRect
      (harg6.unread X) = X := by
  simp only [View.readAt_eq_ld, harg6.read_unread, View.ld_unit_zero (S := S256) hz1]

end Cert.KernelIdeal.Fr

end
-- ==== Proof.Attn.lean ====
/-
  Masked single-head attention over the extended reals, one batch entry at a time, as plain functions of row
  and column indices: three clamped projections of the activations (value, key, query), the scores
  `q · kᵀ`, the masking of the scores, a softmax along each row, the mixing of the value rows by the attention
  weights, and a last clamped projection.

  The masking is stated twice. One form SELECTS: where the mask entry equals one the score is kept, elsewhere a large
  negative fill stands in. The other BLENDS: `score · mask − big · (1 − mask)`. On a mask whose entries are
  all zero or one the two agree entry by entry: at one, `score · 1 − big · 0 = score`; at zero,
  `score · 0 − big · 1 = −big`, and the fill is `−big` (the two literals differ in the sign bit only). On the
  extended reals `x · 0 = 0` and `x · 1 = x` hold for every `x`, infinite ones included, so no finiteness of the
  scores is needed.
-/
import Idealize.ShloMosaic.PureOps.Ideal
import Idealize.ShloMosaic.PureOps.Ideal.Laws

noncomputable section

namespace Cert.Attn

open Idealize.ShloMosaic

/-- The literals the two programs carry, as the extended reals their bit patterns denote. -/
abbrev zeroLit : EReal := Ideal.ofBits .f32 0x00000000#32
abbrev oneLit : EReal := Ideal.ofBits .f32 0x3F800000#32
abbrev bigLit : EReal := Ideal.ofBits .f32 0x59FFCB9E#32
abbrev fillLit : EReal := Ideal.ofBits .f32 0xD9FFCB9E#32
abbrev ninfLit : EReal := Ideal.ofBits .f32 0xFF800000#32

/-- A clamped projection: row `n` of `xb` against column `h` of `W`, plus the bias, clamped below at zero. -/
def proj (xb : Fin 512 → Fin 256 → EReal) (W : Fin 256 → Fin 256 → EReal) (bias : Fin 256 → EReal)
    (n : Fin 512) (h : Fin 256) : EReal :=
  max ((∑ d : Fin 256, xb n d * W d h) + bias h) zeroLit

/-- The score of query row `n` against key row `m`. -/
def score (q k : Fin 512 → Fin 256 → EReal) (n m : Fin 512) : EReal := ∑ h : Fin 256, q n h * k m h

/-- Masking by selection: the score where the mask entry is one, the fill elsewhere. -/
def fillK (s mb : Fin 512 → Fin 512 → EReal) (n m : Fin 512) : EReal :=
  if mb n m = oneLit then s n m else fillLit

/-- Masking by blending. -/
def fillR (s mb : Fin 512 → Fin 512 → EReal) (n m : Fin 512) : EReal :=
  s n m * mb n m - bigLit * (oneLit - mb n m)

/-- The largest entry of row `n` (from the bottom element). -/
def rowmax (s : Fin 512 → Fin 512 → EReal) (n : Fin 512) : EReal :=
  (Finset.univ : Finset (Fin 512)).fold max ninfLit (s n)

/-- The softmax along each row, shifted by the row's maximum. -/
def soft (s : Fin 512 → Fin 512 → EReal) (n m : Fin 512) : EReal :=
  Ideal.div (Ideal.exp (s n m - rowmax s n)) (∑ m' : Fin 512, Ideal.exp (s n m' - rowmax s n))

/-- The value rows mixed by the attention weights. -/
def mix (a : Fin 512 → Fin 512 → EReal) (v : Fin 512 → Fin 256 → EReal) (n : Fin 512) (h : Fin 256) : EReal :=
  ∑ m : Fin 512, a n m * v m h

/-- One batch entry's attention with the mask applied by selection. -/
def attnK (xb : Fin 512 → Fin 256 → EReal) (mb : Fin 512 → Fin 512 → EReal)
    (Wv : Fin 256 → Fin 256 → EReal) (bv : Fin 256 → EReal) (Wk : Fin 256 → Fin 256 → EReal) (bk : Fin 256 → EReal)
    (Wq : Fin 256 → Fin 256 → EReal) (bq : Fin 256 → EReal) (Wo : Fin 256 → Fin 256 → EReal) (bo : Fin 256 → EReal) :
    Fin 512 → Fin 256 → EReal :=
  proj (mix (soft (fillK (score (proj xb Wq bq) (proj xb Wk bk)) mb)) (proj xb Wv bv)) Wo bo

/-- One batch entry's attention with the mask applied by blending. -/
def attnR (xb : Fin 512 → Fin 256 → EReal) (mb : Fin 512 → Fin 512 → EReal)
    (Wv : Fin 256 → Fin 256 → EReal) (bv : Fin 256 → EReal) (Wk : Fin 256 → Fin 256 → EReal) (bk : Fin 256 → EReal)
    (Wq : Fin 256 → Fin 256 → EReal) (bq : Fin 256 → EReal) (Wo : Fin 256 → Fin 256 → EReal) (bo : Fin 256 → EReal) :
    Fin 512 → Fin 256 → EReal :=
  proj (mix (soft (fillR (score (proj xb Wq bq) (proj xb Wk bk)) mb)) (proj xb Wv bv)) Wo bo

/-- The three column ranges of the concatenated projection weights and biases: the value projection's columns
    come first, then the key projection's, then the query projection's. -/
def colV (h : Fin 256) : Fin 768 := ⟨h.val, lt_of_lt_of_le h.isLt (by decide)⟩
def colK (h : Fin 256) : Fin 768 := ⟨256 + h.val, by have := h.isLt; omega⟩
def colQ (h : Fin 256) : Fin 768 := ⟨512 + h.val, by have := h.isLt; omega⟩

end Cert.Attn

end
-- ==== Proof.KI.Concat.lean ====
/-
  What the two host concatenations before the launch leave, read at an index.

  @main first lays the value, key and query projection matrices side by side along the columns (columns 0–255 the
  value projection, 256–511 the key projection, 512–767 the query projection) and the three bias vectors end to end
  in the same order. An entry of the wide matrix at row `d` and column `h`, `256 + h` or `512 + h` is the entry at
  row `d`, column `h` of the first, second or third matrix; an entry of the long vector at `h`, `256 + h` or
  `512 + h` is entry `h` of the first, second or third vector.
-/
import proofs.«406869_j18743237280566_3_alg».proof.Proof.KI.Entry
import proofs.«406869_j18743237280566_3_alg».proof.Proof.Attn
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn

variable {F : FTy → Type} [FloatOps F]

variable (m : (ℓ : Loc nD τ sig) → Buf (Elt F) ℓ)

/-! ## The two concatenations as whole arrays -/

/-- The wide matrix the region finds is the three projection matrices side by side. -/
theorem V_v0_eq (c : Dev nD) :
    (V m c main_v0 : S256x768.Idx → Elt F .f32)
      = concatenate S256x768 1 [⟨S256x256, m ((c : Thread nD τ).loc main_arg2)⟩, ⟨S256x256, m ((c : Thread nD τ).loc main_arg4)⟩,
          ⟨S256x256, m ((c : Thread nD τ).loc main_arg6)⟩] concatenates_S256x256_S256x256_S256x256_S256x768_d1 := by
  dsimp only [V, hostOps0]; after_results; rfl

/-- The long vector the region finds is the three bias vectors end to end. -/
theorem V_v1_eq (c : Dev nD) :
    (V m c main_v1 : S768.Idx → Elt F .f32)
      = concatenate S768 0 [⟨S256, m ((c : Thread nD τ).loc main_arg3)⟩, ⟨S256, m ((c : Thread nD τ).loc main_arg5)⟩,
          ⟨S256, m ((c : Thread nD τ).loc main_arg7)⟩] concatenates_S256_S256_S256_S768_d0 := by
  dsimp only [V, hostOps0]; after_results; rfl

/-! ## The wide matrix at an index -/

/-- Columns 0–255 of the wide matrix are the first matrix. -/
theorem V_v0_colV (c : Dev nD) (d h : Fin 256) :
    (V m c main_v0 : S256x768.Idx → Elt F .f32) (ix2 d (colV h))
      = (m ((c : Thread nD τ).loc main_arg2) : S256x256.Idx → Elt F .f32) (ix2 d h) := by
  rw [V_v0_eq]
  refine concatenate_apply_piece (1 : Fin S256x768.rank) _ _ (ix2 d (colV h)) 0 (by simp) S256x256 _ rfl rfl 0 rfl (ix2 d h) ?_ ?_
  · intro b hb
    match b, hb with
    | ⟨0, _⟩, _ => rfl
    | ⟨1, _⟩, hb => exact absurd rfl hb
  · show 0 + h.val = h.val
    omega

/-- Columns 256–511 of the wide matrix are the second matrix. -/
theorem V_v0_colK (c : Dev nD) (d h : Fin 256) :
    (V m c main_v0 : S256x768.Idx → Elt F .f32) (ix2 d (colK h))
      = (m ((c : Thread nD τ).loc main_arg4) : S256x256.Idx → Elt F .f32) (ix2 d h) := by
  rw [V_v0_eq]
  refine concatenate_apply_piece (1 : Fin S256x768.rank) _ _ (ix2 d (colK h)) 1 (by simp) S256x256 _ rfl rfl 256 rfl (ix2 d h) ?_ ?_
  · intro b hb
    match b, hb with
    | ⟨0, _⟩, _ => rfl
    | ⟨1, _⟩, hb => exact absurd rfl hb
  · show 256 + h.val = 256 + h.val
    rfl

/-- Columns 512–767 of the wide matrix are the third matrix. -/
theorem V_v0_colQ (c : Dev nD) (d h : Fin 256) :
    (V m c main_v0 : S256x768.Idx → Elt F .f32) (ix2 d (colQ h))
      = (m ((c : Thread nD τ).loc main_arg6) : S256x256.Idx → Elt F .f32) (ix2 d h) := by
  rw [V_v0_eq]
  refine concatenate_apply_piece (1 : Fin S256x768.rank) _ _ (ix2 d (colQ h)) 2 (by simp) S256x256 _ rfl rfl 512 rfl (ix2 d h) ?_ ?_
  · intro b hb
    match b, hb with
    | ⟨0, _⟩, _ => rfl
    | ⟨1, _⟩, hb => exact absurd rfl hb
  · show 512 + h.val = 512 + h.val
    rfl

/-! ## The long vector at an index -/

/-- Entries 0–255 of the long vector are the first vector. -/
theorem V_v1_colV (c : Dev nD) (h : Fin 256) :
    (V m c main_v1 : S768.Idx → Elt F .f32) (ix1 (colV h))
      = (m ((c : Thread nD τ).loc main_arg3) : S256.Idx → Elt F .f32) (ix1 h) := by
  rw [V_v1_eq]
  refine concatenate_apply_piece (0 : Fin S768.rank) _ _ (ix1 (colV h)) 0 (by simp) S256 _ rfl rfl 0 rfl (ix1 h) ?_ ?_
  · intro b hb
    match b, hb with
    | ⟨0, _⟩, hb => exact absurd rfl hb
  · show 0 + h.val = h.val
    omega

/-- Entries 256–511 of the long vector are the second vector. -/
theorem V_v1_colK (c : Dev nD) (h : Fin 256) :
    (V m c main_v1 : S768.Idx → Elt F .f32) (ix1 (colK h))
      = (m ((c : Thread nD τ).loc main_arg5) : S256.Idx → Elt F .f32) (ix1 h) := by
  rw [V_v1_eq]
  refine concatenate_apply_piece (0 : Fin S768.rank) _ _ (ix1 (colK h)) 1 (by simp) S256 _ rfl rfl 256 rfl (ix1 h) ?_ ?_
  · intro b hb
    match b, hb with
    | ⟨0, _⟩, hb => exact absurd rfl hb
  · show 256 + h.val = 256 + h.val
    rfl

/-- Entries 512–767 of the long vector are the third vector. -/
theorem V_v1_colQ (c : Dev nD) (h : Fin 256) :
    (V m c main_v1 : S768.Idx → Elt F .f32) (ix1 (colQ h))
      = (m ((c : Thread nD τ).loc main_arg7) : S256.Idx → Elt F .f32) (ix1 h) := by
  rw [V_v1_eq]
  refine concatenate_apply_piece (0 : Fin S768.rank) _ _ (ix1 (colQ h)) 2 (by simp) S256 _ rfl rfl 512 rfl (ix1 h) ?_ ?_
  · intro b hb
    match b, hb with
    | ⟨0, _⟩, hb => exact absurd rfl hb
  · show 512 + h.val = 512 + h.val
    rfl

end Cert.KernelIdeal.Fr

end
-- ==== Proof.KI.Cover.lean ====
/-
  The output window's sixteen blocks cover the result array.

  The result array has 128 batch entries of 512 rows and 256 columns; the output window's block holds eight whole
  batch entries, and grid point `t` writes back block `(t, 0, 0)`: batch entries `8 t` to `8 t + 7`, every row,
  every column. So batch entry `r` lies in the block of point `r / 8`, and every point writes its block back.
-/
import proofs.«406869_j18743237280566_3_alg».proof.Proof.KI.Entry
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The output window's index map, decided over the sixteen grid points: point `t` holds block `(t, 0, 0)`. -/
theorem idx_facts6 : ∀ t : Fin cfg0.N, win0_6.index t (0 : Fin 3) = t.val
    ∧ win0_6.index t (1 : Fin 3) = 0
    ∧ win0_6.index t (2 : Fin 3) = 0 :=
  (by decide +kernel : ∀ t : Fin grid0.N, _)

/-- An index of the result array is in point `t`'s block iff each coordinate is in the block's range on its axis. -/
theorem mem_blk6 (t : Fin cfg0.N) (i : S128x512x256.Idx) :
    i ∈ ((cfg0.win 6).blk t).view.set ↔ ∀ a : Fin 3, win0_6.index t a * S8x512x256.size a ≤ (i a).val ∧ (i a).val < win0_6.index t a * S8x512x256.size a + S8x512x256.size a := by
  show i ∈ ((View.whole main_v2).slice (win0_6.rect t)).set ↔ _
  rw [View.set_slice_whole, Rect.mem_set_unit]
  exact Iff.rfl

/-- Every index of the result array is in the block some point writes back: batch entry `r` in that of point `r / 8`. -/
theorem cover6 (i : S128x512x256.Idx) : ∃ t : Fin cfg0.N, (cfg0.win 6).flush t = true ∧ i ∈ ((cfg0.win 6).blk t).view.set := by
  have hi0 : (i 0).val < 128 := (i 0).isLt
  have hi1 : (i 1).val < 512 := (i 1).isLt
  have hi2 : (i 2).val < 256 := (i 2).isLt
  obtain ⟨t, ht⟩ : ∃ t : Fin cfg0.N, t.val = (i 0).val / 8 :=
    ⟨⟨(i 0).val / 8, by rw [show cfg0.N = 16 from N_0]; omega⟩, rfl⟩
  obtain ⟨e0, e1, e2⟩ := idx_facts6 t
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 512 ≤ (i 1).val ∧ (i 1).val < win0_6.index t (1 : Fin 3) * 512 + 512; omega
  | ⟨2, _⟩ => show win0_6.index t (2 : Fin 3) * 256 ≤ (i 2).val ∧ (i 2).val < win0_6.index t (2 : Fin 3) * 256 + 256; omega

end Cert.KernelIdeal.Fr

end
-- ==== Proof.KI.Payload.lean ====
/-
  The arithmetic of one batch entry, read at an index: the fused clamped projection, its three column ranges
  (value, key, query), the scores, the masking by selection, the softmax along each row, the mixing of the value
  rows and the last clamped projection are, element by element, the specification's functions of row and column
  indices.
-/
import proofs.«406869_j18743237280566_3_alg».proof.Proof.Gen.KernelIdeal.Skeleton
import proofs.«406869_j18743237280566_3_alg».proof.Proof.Attn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

variable [Facts]

/-! ## The four contractions read at an index -/

theorem lhs_fused_0 (i : S512x768.Idx) (q : dot_S512x256_S256x768_S512x768_1_0_0_1_n_n.contr.Idx) :
    (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem lhs_fused_1 (i : S512x768.Idx) (q : dot_S512x256_S256x768_S512x768_1_0_0_1_n_n.contr.Idx) :
    (dot_S512x256_S256x768_S512x768_1_0_0_1_n_n.lhsIdx i q 1).val = (q ⟨0, by decide⟩).val :=
  dot_S512x256_S256x768_S512x768_1_0_0_1_n_n.lhsIdx_val_of_single rfl i q
theorem rhs_fused_0 (i : S512x768.Idx) (q : dot_S512x256_S256x768_S512x768_1_0_0_1_n_n.contr.Idx) :
    (dot_S512x256_S256x768_S512x768_1_0_0_1_n_n.rhsIdx i q 0).val = (q ⟨0, by decide⟩).val :=
  dot_S512x256_S256x768_S512x768_1_0_0_1_n_n.rhsIdx_val_of_single rfl i q
theorem rhs_fused_1 (i : S512x768.Idx) (q : dot_S512x256_S256x768_S512x768_1_0_0_1_n_n.contr.Idx) :
    (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- The fused projection's product at row `n` and column `c`: the sum over the 256 input features. -/
theorem mm_fused_apply (x : FVec Ideal S512x256 .bf16) (w : FVec Ideal S256x768 .bf16) (n : Fin 512) (c : Fin 768) :
    matmul dot_S512x256_S256x768_S512x768_1_0_0_1_n_n none x w (constant (F := Ideal) S512x768 .f32 0x00000000#32) (ix2 n c)
      = ∑ k : Fin 256, x (ix2 n k) * w (ix2 k c) := by
  refine (Ideal.matmul_constant_zero_apply dot_S512x256_S256x768_S512x768_1_0_0_1_n_n none x w (ix2 n c)).trans ?_
  rw [← Equiv.sum_comp (contrEquiv1 dot_S512x256_S256x768_S512x768_1_0_0_1_n_n 256 rfl rfl).symm]
  refine Finset.sum_congr rfl fun k _ => ?_
  have hk := contrEquiv1_symm_val dot_S512x256_S256x768_S512x768_1_0_0_1_n_n 256 rfl rfl k
  have el : dot_S512x256_S256x768_S512x768_1_0_0_1_n_n.lhsIdx (ix2 n c) ((contrEquiv1 dot_S512x256_S256x768_S512x768_1_0_0_1_n_n 256 rfl rfl).symm k) = ix2 n k := funext fun a => Fin.ext (by
    match a with
    | ⟨0, _⟩ => exact lhs_fused_0 _ _
    | ⟨1, _⟩ => exact (lhs_fused_1 _ _).trans hk)
  have er : dot_S512x256_S256x768_S512x768_1_0_0_1_n_n.rhsIdx (ix2 n c) ((contrEquiv1 dot_S512x256_S256x768_S512x768_1_0_0_1_n_n 256 rfl rfl).symm k) = ix2 k c := funext fun a => Fin.ext (by
    match a with
    | ⟨0, _⟩ => exact (rhs_fused_0 _ _).trans hk
    | ⟨1, _⟩ => exact rhs_fused_1 _ _)
  rw [el, er]

theorem lhs_score_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_score_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem rhs_score_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_score_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- The scores' product at query row `n` and key row `c`: both operands are contracted along their features. -/
theorem mm_score_apply (x : FVec Ideal S512x256 .bf16) (w : FVec Ideal S512x256 .bf16) (n : Fin 512) (c : Fin 512) :
    matmul dot_S512x256_S512x256_S512x512_1_1_0_0_n_n none x w (constant (F := Ideal) S512x512 .f32 0x00000000#32) (ix2 n c)
      = ∑ k : Fin 256, x (ix2 n k) * w (ix2 c k) := by
  refine (Ideal.matmul_constant_zero_apply dot_S512x256_S512x256_S512x512_1_1_0_0_n_n none x w (ix2 n c)).trans ?_
  rw [← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 n c) ((contrEquiv1 dot_S512x256_S512x256_S512x512_1_1_0_0_n_n 256 rfl rfl).symm k) = ix2 n k := funext fun a => Fin.ext (by
    match a with
    | ⟨0, _⟩ => exact lhs_score_0 _ _
    | ⟨1, _⟩ => exact (lhs_score_1 _ _).trans hk)
  have er : dot_S512x256_S512x256_S512x512_1_1_0_0_n_n.rhsIdx (ix2 n c) ((contrEquiv1 dot_S512x256_S512x256_S512x512_1_1_0_0_n_n 256 rfl rfl).symm k) = ix2 c k := funext fun a => Fin.ext (by
    match a with
    | ⟨0, _⟩ => exact rhs_score_0 _ _
    | ⟨1, _⟩ => exact (rhs_score_1 _ _).trans hk)
  rw [el, er]

theorem lhs_mix_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_mix_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_mix_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_mix_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The mixing product at row `n` and feature `c`: the sum over the 512 key rows. -/
theorem mm_mix_apply (x : FVec Ideal S512x512 .bf16) (w : FVec Ideal S512x256 .bf16) (n : Fin 512) (c : Fin 256) :
    matmul dot_S512x512_S512x256_S512x256_1_0_0_1_n_n none x w (constant (F := Ideal) S512x256 .f32 0x00000000#32) (ix2 n c)
      = ∑ k : Fin 512, x (ix2 n k) * w (ix2 k c) := by
  refine (Ideal.matmul_constant_zero_apply dot_S512x512_S512x256_S512x256_1_0_0_1_n_n none x w (ix2 n c)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 n c) ((contrEquiv1 dot_S512x512_S512x256_S512x256_1_0_0_1_n_n 512 rfl rfl).symm k) = ix2 n k := funext fun a => Fin.ext (by
    match a with
    | ⟨0, _⟩ => exact lhs_mix_0 _ _
    | ⟨1, _⟩ => exact (lhs_mix_1 _ _).trans hk)
  have er : dot_S512x512_S512x256_S512x256_1_0_0_1_n_n.rhsIdx (ix2 n c) ((contrEquiv1 dot_S512x512_S512x256_S512x256_1_0_0_1_n_n 512 rfl rfl).symm k) = ix2 k c := funext fun a => Fin.ext (by
    match a with
    | ⟨0, _⟩ => exact (rhs_mix_0 _ _).trans hk
    | ⟨1, _⟩ => exact rhs_mix_1 _ _)
  rw [el, er]

theorem lhs_out_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_out_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_out_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_out_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The last projection's product at row `n` and column `c`: the sum over the 256 features. -/
theorem mm_out_apply (x : FVec Ideal S512x256 .bf16) (w : FVec Ideal S256x256 .bf16) (n : Fin 512) (c : Fin 256) :
    matmul dot_S512x256_S256x256_S512x256_1_0_0_1_n_n none x w (constant (F := Ideal) S512x256 .f32 0x00000000#32) (ix2 n c)
      = ∑ k : Fin 256, x (ix2 n k) * w (ix2 k c) := by
  refine (Ideal.matmul_constant_zero_apply dot_S512x256_S256x256_S512x256_1_0_0_1_n_n none x w (ix2 n c)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 n c) ((contrEquiv1 dot_S512x256_S256x256_S512x256_1_0_0_1_n_n 256 rfl rfl).symm k) = ix2 n k := funext fun a => Fin.ext (by
    match a with
    | ⟨0, _⟩ => exact lhs_out_0 _ _
    | ⟨1, _⟩ => exact (lhs_out_1 _ _).trans hk)
  have er : dot_S512x256_S256x256_S512x256_1_0_0_1_n_n.rhsIdx (ix2 n c) ((contrEquiv1 dot_S512x256_S256x256_S512x256_1_0_0_1_n_n 256 rfl rfl).symm k) = ix2 k c := funext fun a => Fin.ext (by
    match a with
    | ⟨0, _⟩ => exact (rhs_out_0 _ _).trans hk
    | ⟨1, _⟩ => exact rhs_out_1 _ _)
  rw [el, er]

/-! ## Two layout forms a row reduction's result passes through -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row `n` of a `[512, 512]` array with the column `k` put back. -/
theorem lift_row (n k : Fin 512) : reduces_S512x512_S512.lift (ix1 n) k = ix2 n k :=
  funext fun a => Fin.ext (by
    match a with
    | ⟨0, _⟩ => rfl
    | ⟨1, _⟩ => rfl)

/-! ## The fused clamped projection -/

/-- The activations `x` against the concatenated weights `w`, plus the concatenated bias `b`, clamped below at zero. -/
def fusedV (x : FVec Ideal S512x256 .bf16) (w : FVec Ideal S256x768 .bf16) (b : FVec Ideal S768 .f32) :
    FVec Ideal S512x768 .f32 :=
  maximumf
    (addf (matmul dot_S512x256_S256x768_S512x768_1_0_0_1_n_n none x w (constant S512x768 .f32 0x00000000#32))
      (broadcastTo S512x768 (shapeCast S1x768 b shapeCasts_S768_S1x768) broadcasts_S1x768_S512x768))
    (broadcast S512x768 (Scalar.ofBits .f32 0x00000000#32))

theorem fusedV_apply (x : FVec Ideal S512x256 .bf16) (w : FVec Ideal S256x768 .bf16) (b : FVec Ideal S768 .f32)
    (n : Fin 512) (c : Fin 768) :
    fusedV x w b (ix2 n c) = max ((∑ d : Fin 256, x (ix2 n d) * w (ix2 d c)) + b (ix1 c)) zeroLit := by
  unfold fusedV
  rw [maximumf_apply, addf_apply, mm_fused_apply, broadcastTo_1b_ab_apply, shapeCast_a_1a_apply, broadcast_apply]
  rfl

/-! ## The scores, the masking, the softmax, the mixing and the last projection -/

/-- The scores from the fused projection `p`: its query columns against its key columns. -/
def scoresV (p : FVec Ideal S512x768 .f32) : FVec Ideal S512x512 .f32 :=
  matmul dot_S512x256_S512x256_S512x512_1_1_0_0_n_n none
    (truncf .bf16 (extractStridedSlice S512x256 ![0, 512] p slices_S512x768_o0_512_S512x256) bitsLt_bf16_f32)
    (truncf .bf16 (extractStridedSlice S512x256 ![0, 256] p slices_S512x768_o0_256_S512x256) bitsLt_bf16_f32)
    (constant S512x512 .f32 0x00000000#32)

theorem scoresV_apply (p : FVec Ideal S512x768 .f32) (n m : Fin 512) :
    scoresV p (ix2 n m) = ∑ h : Fin 256, p (ix2 n (colQ h)) * p (ix2 m (colK h)) := by
  unfold scoresV
  rw [mm_score_apply]
  refine Finset.sum_congr rfl fun h _ => ?_
  rw [truncf_apply, truncf_apply, slice2_axis1_apply 512 p _ n h (colQ h) rfl,
    slice2_axis1_apply 256 p _ m h (colK h) rfl]

theorem scoresV_eq (p : FVec Ideal S512x768 .f32) (q k : Fin 512 → Fin 256 → EReal)
    (hq : ∀ n h, p (ix2 n (colQ h)) = q n h) (hk : ∀ n h, p (ix2 n (colK h)) = k n h) (n m : Fin 512) :
    scoresV p (ix2 n m) = score q k n m := by
  rw [scoresV_apply]
  unfold score
  exact Finset.sum_congr rfl fun h _ => by rw [hq, hk]

/-- A select on an ordered-equal comparison of extended reals is the `if` on their equality. -/
theorem select_oeq (x y a b : EReal) :
    Scalar.select (FloatOps.cmpf (F := Ideal) (φ := .f32) .oeq x y) a b = if x = y then a else b := by
  show (if BitVec.ofBool (decide (x = y)) = 1 then a else b) = _
  by_cases h : x = y
  · rw [if_pos h, decide_eq_true h]; exact if_pos (by decide)
  · rw [if_neg h, decide_eq_false h]; exact if_neg (by decide)

/-- The masking by selection: the score where the mask entry is one, the fill elsewhere. -/
def maskedV (s : FVec Ideal S512x512 .f32) (mg : Vec Ideal S1x512x512 .f32) : FVec Ideal S512x512 .f32 :=
  have v30 : FVec Ideal S512x512 .f32 := shapeCast S512x512 mg shapeCasts_S1x512x512_S512x512
  select (cmpf .oeq v30 (broadcast S512x512 (Scalar.ofBits .f32 0x3F800000#32))) s
    (broadcast S512x512 (Scalar.ofBits .f32 0xD9FFCB9E#32))

theorem maskedV_apply (s : FVec Ideal S512x512 .f32) (mg : Vec Ideal S1x512x512 .f32) (n m : Fin 512) :
    maskedV s mg (ix2 n m) = if mg (ix3 (0 : Fin 1) n m) = oneLit then s (ix2 n m) else fillLit := by
  show select (cmpf .oeq (shapeCast S512x512 mg shapeCasts_S1x512x512_S512x512 : FVec Ideal S512x512 .f32)
      (broadcast S512x512 (Scalar.ofBits .f32 0x3F800000#32))) s
    (broadcast S512x512 (Scalar.ofBits .f32 0xD9FFCB9E#32)) (ix2 n m) = _
  rw [select_apply, cmpf_apply, shapeCast_1ab_ab_apply, broadcast_apply, broadcast_apply]
  exact select_oeq _ _ _ _

theorem maskedV_eq (s : FVec Ideal S512x512 .f32) (mg : Vec Ideal S1x512x512 .f32) (f mb : Fin 512 → Fin 512 → EReal)
    (hs : ∀ n m, s (ix2 n m) = f n m) (hm : ∀ n m, mg (ix3 (0 : Fin 1) n m) = mb n m) (n m : Fin 512) :
    maskedV s mg (ix2 n m) = fillK f mb n m := by
  rw [maskedV_apply, hs, hm]
  rfl

/-- Each row's maximum, spread back along the row. -/
def rowmaxB (s : FVec Ideal S512x512 .f32) : FVec Ideal S512x512 .f32 :=
  broadcastTo S512x512
    (shapeCast S512x1
      (multiReduction (F := Ideal) .maximumf [1] S512 s 0xFF800000#32 reduces_S512x512_S512 (.inl rfl) rfl)
      shapeCasts_S512_S512x1)
    broadcasts_S512x1_S512x512

theorem rowmaxB_apply (s : FVec Ideal S512x512 .f32) (n m : Fin 512) :
    rowmaxB s (ix2 n m) = rowmax (fun n m => s (ix2 n m)) n := by
  unfold rowmaxB
  rw [broadcastTo_a1_ab_apply, shapeCast_a_a1_apply]
  refine (Ideal.multiReduction_maximumf_single s 0xFF800000#32 reduces_S512x512_S512 (.inl rfl) rfl (ix1 n)).trans ?_
  unfold rowmax
  exact congrArg (fun g : Fin 512 → EReal => Finset.fold max ninfLit g Finset.univ)
    (funext fun k => congrArg s (lift_row n k))

/-- Each row's sum, spread back along the row. -/
def rowsumB (e : FVec Ideal S512x512 .f32) : FVec Ideal S512x512 .f32 :=
  broadcastTo S512x512
    (shapeCast S512x1
      (multiReduction (F := Ideal) .add [1] S512 e 0x00000000#32 reduces_S512x512_S512 (.inl rfl) rfl)
      shapeCasts_S512_S512x1)
    broadcasts_S512x1_S512x512

theorem rowsumB_apply (e : FVec Ideal S512x512 .f32) (n m : Fin 512) :
    rowsumB e (ix2 n m) = ∑ m' : Fin 512, e (ix2 n m') := by
  unfold rowsumB
  rw [broadcastTo_a1_ab_apply, shapeCast_a_a1_apply]
  refine (Ideal.multiReduction_add_single e 0x00000000#32 reduces_S512x512_S512 (.inl rfl) rfl (ix1 n)).trans ?_
  exact Finset.sum_congr rfl fun k _ => congrArg e (lift_row n k)

/-- The softmax along each row, shifted by the row's maximum. -/
def softV (s : FVec Ideal S512x512 .f32) : FVec Ideal S512x512 .f32 :=
  divf (exp (subf s (rowmaxB s))) (rowsumB (exp (subf s (rowmaxB s))))

theorem softV_apply (s : FVec Ideal S512x512 .f32) (n m : Fin 512) :
    softV s (ix2 n m) = soft (fun n m => s (ix2 n m)) n m := by
  have he : ∀ m' : Fin 512, exp (subf s (rowmaxB s)) (ix2 n m')
      = Ideal.exp (s (ix2 n m') - rowmax (fun n m => s (ix2 n m)) n) := fun m' => by
    show Ideal.exp (subf s (rowmaxB s) (ix2 n m')) = _
    rw [subf_apply, rowmaxB_apply]
  show Ideal.div (exp (subf s (rowmaxB s)) (ix2 n m)) (rowsumB (exp (subf s (rowmaxB s))) (ix2 n m))
    = Ideal.div (Ideal.exp (s (ix2 n m) - rowmax (fun n m => s (ix2 n m)) n))
        (∑ m' : Fin 512, Ideal.exp (s (ix2 n m') - rowmax (fun n m => s (ix2 n m)) n))
  rw [rowsumB_apply, he m, Finset.sum_congr rfl fun m' _ => he m']

theorem softV_eq (s : FVec Ideal S512x512 .f32) (f : Fin 512 → Fin 512 → EReal)
    (hs : ∀ n m, s (ix2 n m) = f n m) (n m : Fin 512) : softV s (ix2 n m) = soft f n m := by
  rw [softV_apply]
  exact congrArg (fun g : Fin 512 → Fin 512 → EReal => soft g n m) (funext fun n => funext fun m => hs n m)

/-- The value columns of the fused projection `p` mixed by the attention weights `a`. -/
def mixV (a : FVec Ideal S512x512 .f32) (p : FVec Ideal S512x768 .f32) : FVec Ideal S512x256 .f32 :=
  matmul dot_S512x512_S512x256_S512x256_1_0_0_1_n_n none (truncf .bf16 a bitsLt_bf16_f32)
    (truncf .bf16 (extractStridedSlice S512x256 ![0, 0] p slices_S512x768_o0_0_S512x256) bitsLt_bf16_f32)
    (constant S512x256 .f32 0x00000000#32)

theorem mixV_apply (a : FVec Ideal S512x512 .f32) (p : FVec Ideal S512x768 .f32) (n : Fin 512) (h : Fin 256) :
    mixV a p (ix2 n h) = ∑ m : Fin 512, a (ix2 n m) * p (ix2 m (colV h)) := by
  unfold mixV
  rw [mm_mix_apply]
  refine Finset.sum_congr rfl fun m _ => ?_
  rw [truncf_apply, truncf_apply, slice2_axis1_apply 0 p _ m h (colV h) (Nat.zero_add _).symm]

theorem mixV_eq (a : FVec Ideal S512x512 .f32) (p : FVec Ideal S512x768 .f32) (f : Fin 512 → Fin 512 → EReal)
    (v : Fin 512 → Fin 256 → EReal) (ha : ∀ n m, a (ix2 n m) = f n m) (hv : ∀ m h, p (ix2 m (colV h)) = v m h)
    (n : Fin 512) (h : Fin 256) : mixV a p (ix2 n h) = mix f v n h := by
  rw [mixV_apply]
  unfold mix
  exact Finset.sum_congr rfl fun m _ => by rw [ha, hv]

/-- The last projection before its clamp: the rows `y` against the weights `wo`, plus the bias `bo`. -/
def outV (y : FVec Ideal S512x256 .f32) (wo : FVec Ideal S256x256 .bf16) (bo : Vec Ideal S256 .f32) :
    FVec Ideal S512x256 .f32 :=
  have v48 : FVec Ideal S1x256 .f32 := shapeCast S1x256 bo shapeCasts_S256_S1x256
  addf (matmul dot_S512x256_S256x256_S512x256_1_0_0_1_n_n none (truncf .bf16 y bitsLt_bf16_f32) wo
      (constant S512x256 .f32 0x00000000#32))
    (broadcastTo S512x256 v48 broadcasts_S1x256_S512x256)

theorem outV_apply (y : FVec Ideal S512x256 .f32) (wo : FVec Ideal S256x256 .bf16) (bo : Vec Ideal S256 .f32)
    (n : Fin 512) (j : Fin 256) :
    outV y wo bo (ix2 n j) = (∑ h : Fin 256, y (ix2 n h) * wo (ix2 h j)) + bo (ix1 j) := by
  show addf (matmul dot_S512x256_S256x256_S512x256_1_0_0_1_n_n none (truncf .bf16 y bitsLt_bf16_f32) wo
      (constant S512x256 .f32 0x00000000#32))
    (broadcastTo S512x256 (shapeCast S1x256 bo shapeCasts_S256_S1x256 : FVec Ideal S1x256 .f32)
      broadcasts_S1x256_S512x256) (ix2 n j) = _
  rw [addf_apply, mm_out_apply, broadcastTo_1b_ab_apply, shapeCast_a_1a_apply]
  rfl

/-- The stored block: the last projection clamped below at zero, under a leading unit axis. -/
theorem pay4_apply (y : FVec Ideal S512x256 .f32) (n : Fin 512) (j : Fin 256) :
    k0_pay4 (F := Ideal) y (k0_pay6 (F := Ideal)) (ix3 (0 : Fin 1) n j) = max (y (ix2 n j)) zeroLit := by
  show shapeCast S1x512x256 (maximumf y (broadcast S512x256 (Scalar.ofBits (F := Ideal) .f32 0x00000000#32)))
    shapeCasts_S512x256_S1x512x256 (ix3 (0 : Fin 1) n j) = _
  rw [shapeCast_ab_1ab_apply, maximumf_apply, broadcast_apply]
  rfl

theorem outV_eq (y : FVec Ideal S512x256 .f32) (wo : FVec Ideal S256x256 .bf16) (bo : Vec Ideal S256 .f32)
    (g : Fin 512 → Fin 256 → EReal) (Wo : Fin 256 → Fin 256 → EReal) (bO : Fin 256 → EReal)
    (hy : ∀ n h, y (ix2 n h) = g n h) (hw : ∀ h j, wo (ix2 h j) = Wo h j) (hb : ∀ j, bo (ix1 j) = bO j)
    (n : Fin 512) (j : Fin 256) :
    k0_pay4 (F := Ideal) (outV y wo bo) (k0_pay6 (F := Ideal)) (ix3 (0 : Fin 1) n j) = proj g Wo bO n j := by
  rw [pay4_apply, outV_apply, hb]
  unfold proj
  exact congrArg (fun t : EReal => max (t + bO j) zeroLit) (Finset.sum_congr rfl fun h _ => by rw [hy, hw])

/-! ## The whole entry -/

/-- The payload is the stages in sequence. -/
theorem pay5_eq (w3 : Vec Ideal S256x768 .f32) (wo : Vec Ideal S256x256 .f32) (b3 : Vec Ideal S768 .f32)
    (bo : Vec Ideal S256 .f32) (xg : Vec Ideal S1x512x256 .f32) (mg : Vec Ideal S1x512x512 .f32) :
    k0_pay5 (F := Ideal) (k0_pay1 w3) (k0_pay2 wo) (k0_pay3 b3) bo xg mg
      = outV
          (mixV
            (softV (maskedV (scoresV (fusedV
              (truncf .bf16 (shapeCast S512x256 xg shapeCasts_S1x512x256_S512x256 : FVec Ideal S512x256 .f32) bitsLt_bf16_f32)
              (k0_pay1 w3) (k0_pay3 b3))) mg))
            (fusedV
              (truncf .bf16 (shapeCast S512x256 xg shapeCasts_S1x512x256_S512x256 : FVec Ideal S512x256 .f32) bitsLt_bf16_f32)
              (k0_pay1 w3) (k0_pay3 b3)))
          (k0_pay2 wo) bo := rfl

/-- ONE BATCH ENTRY, READ AT AN INDEX: the stored block at row `n` and column `j` is the specification's attention with
    the mask applied by selection, over the entry's activations and mask and the three column ranges of the
    concatenated weights and bias. -/
theorem pay_apply (w3 : Vec Ideal S256x768 .f32) (wo : Vec Ideal S256x256 .f32) (b3 : Vec Ideal S768 .f32)
    (bo : Vec Ideal S256 .f32) (xg : Vec Ideal S1x512x256 .f32) (mg : Vec Ideal S1x512x512 .f32) (n : Fin 512) (j : Fin 256) :
    k0_pay4 (F := Ideal) (k0_pay5 (F := Ideal) (k0_pay1 w3) (k0_pay2 wo) (k0_pay3 b3) bo xg mg) (k0_pay6 (F := Ideal))
        (ix3 (0 : Fin 1) n j)
      = attnK (fun n d => xg (ix3 (0 : Fin 1) n d)) (fun n m => mg (ix3 (0 : Fin 1) n m))
          (fun d h => w3 (ix2 d (colV h))) (fun h => b3 (ix1 (colV h)))
          (fun d h => w3 (ix2 d (colK h))) (fun h => b3 (ix1 (colK h)))
          (fun d h => w3 (ix2 d (colQ h))) (fun h => b3 (ix1 (colQ h)))
          (fun h j => wo (ix2 h j)) (fun j => bo (ix1 j)) n j := by
  rw [pay5_eq]
  -- the fused projection at a row and a column of the concatenation
  have hP : ∀ (n : Fin 512) (c : Fin 768),
      fusedV (truncf .bf16 (shapeCast S512x256 xg shapeCasts_S1x512x256_S512x256 : FVec Ideal S512x256 .f32) bitsLt_bf16_f32)
          (k0_pay1 w3) (k0_pay3 b3) (ix2 n c)
        = max ((∑ d : Fin 256, xg (ix3 (0 : Fin 1) n d) * w3 (ix2 d c)) + b3 (ix1 c)) zeroLit := fun n c => by
    rw [fusedV_apply]
    have hb : k0_pay3 (F := Ideal) b3 = b3 := shapeCast_self b3 _
    have hw : ∀ d : Fin 256, k0_pay1 (F := Ideal) w3 (ix2 d c) = w3 (ix2 d c) := fun d =>
      congrFun (shapeCast_self w3 shapeCasts_S256x768_S256x768) (ix2 d c)
    have hx : ∀ d : Fin 256,
        truncf .bf16 (shapeCast S512x256 xg shapeCasts_S1x512x256_S512x256 : FVec Ideal S512x256 .f32) bitsLt_bf16_f32 (ix2 n d)
          = xg (ix3 (0 : Fin 1) n d) := fun d => shapeCast_1ab_ab_apply xg _ n d
    rw [hb]
    exact congrArg (fun t : EReal => max (t + b3 (ix1 c)) zeroLit) (Finset.sum_congr rfl fun d _ => by rw [hx, hw])
  unfold attnK
  refine outV_eq _ _ _ _ _ _ ?_ (fun _ _ => rfl) (fun _ => rfl) n j
  refine mixV_eq _ _ _ _ ?_ (fun m h => hP m (colV h))
  refine softV_eq _ _ ?_
  refine maskedV_eq _ _ _ _ ?_ (fun _ _ => rfl)
  exact scoresV_eq _ _ _ (fun n h => hP n (colQ h)) (fun n h => hP n (colK h))

end Cert.KernelIdeal.Pay

end
-- ==== Proof.KI.Result.lean ====
/-
  The idealized kernel's result array, as one function of the launch contents.

  Point `t` of the grid holds batch entries `8t … 8t+7`; trip `k` of the body's loop works on entry `8t + k`: it
  reads rows `k` of the point's blocks of the activations and of the mask, the whole concatenated weights and
  biases (whose three column ranges are the value, key and query projections' arrays as launched) and the output
  projection's weights and bias, and stores the masked attention of that entry into rows `k` of the output
  block. So every stored value is the restriction to its rectangle of ONE function of the array index (`Gfull`:
  at index (b, n, j), the attention of batch entry `b` at row `n`, column `j`), the output block at point `t` is block
  `t` of that function, the sixteen blocks cover the array, and the array ends holding it.
-/
import proofs.«406869_j18743237280566_3_alg».proof.Proof.KI.Pieces
import proofs.«406869_j18743237280566_3_alg».proof.Proof.KI.Blocks
import proofs.«406869_j18743237280566_3_alg».proof.Proof.KI.Concat
import proofs.«406869_j18743237280566_3_alg».proof.Proof.KI.Cover
import proofs.«406869_j18743237280566_3_alg».proof.Proof.KI.Payload
import proofs.«406869_j18743237280566_3_alg».proof.Proof.Attn
import Idealize.ShloMosaic.Lib.Pipeline.Value
import Idealize.ShloMosaic.Lib.ValueIdx

set_option maxRecDepth 16384

noncomputable section

namespace Cert.KernelIdeal.Fr

open Cert.KernelIdeal Cert.KernelIdeal.Gen Cert.KernelIdeal.Pay Cert.Attn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result array as one function of the launch contents: at (b, n, j), batch entry `b`'s attention at (n, j). -/
def Gfull (c : Dev nD) : S128x512x256.Idx → EReal := fun i =>
  attnK (fun n d => (m ((c : Thread nD τ).loc main_arg0)) (ix3 (⟨(i 0).val, (i 0).isLt⟩ : Fin 128) n d))
    (fun n k => (m ((c : Thread nD τ).loc main_arg1)) (ix3 (⟨(i 0).val, (i 0).isLt⟩ : Fin 128) n k))
    (fun d h => (m ((c : Thread nD τ).loc main_arg2)) (ix2 d h)) (fun h => (m ((c : Thread nD τ).loc main_arg3)) (ix1 h))
    (fun d h => (m ((c : Thread nD τ).loc main_arg4)) (ix2 d h)) (fun h => (m ((c : Thread nD τ).loc main_arg5)) (ix1 h))
    (fun d h => (m ((c : Thread nD τ).loc main_arg6)) (ix2 d h)) (fun h => (m ((c : Thread nD τ).loc main_arg7)) (ix1 h))
    (fun d h => (m ((c : Thread nD τ).loc main_arg8)) (ix2 d h)) (fun h => (m ((c : Thread nD τ).loc main_arg9)) (ix1 h))
    (⟨(i 1).val, (i 1).isLt⟩ : Fin 512) (⟨(i 2).val, (i 2).isLt⟩ : Fin 256)

theorem Gfull_apply (c : Dev nD) (b : Fin 128) (n : Fin 512) (j : Fin 256) :
    Gfull m c (ix3 b n j)
      = attnK (fun n d => (m ((c : Thread nD τ).loc main_arg0)) (ix3 b n d)) (fun n k => (m ((c : Thread nD τ).loc main_arg1)) (ix3 b n k))
          (fun d h => (m ((c : Thread nD τ).loc main_arg2)) (ix2 d h)) (fun h => (m ((c : Thread nD τ).loc main_arg3)) (ix1 h))
          (fun d h => (m ((c : Thread nD τ).loc main_arg4)) (ix2 d h)) (fun h => (m ((c : Thread nD τ).loc main_arg5)) (ix1 h))
          (fun d h => (m ((c : Thread nD τ).loc main_arg6)) (ix2 d h)) (fun h => (m ((c : Thread nD τ).loc main_arg7)) (ix1 h))
          (fun d h => (m ((c : Thread nD τ).loc main_arg8)) (ix2 d h)) (fun h => (m ((c : Thread nD τ).loc main_arg9)) (ix1 h)) n j := rfl

/-- The attention is a function of its ten arrays: equal arrays, equal values. -/
theorem attnK_congr {xb xb' : Fin 512 → Fin 256 → EReal} {mb mb' : Fin 512 → Fin 512 → EReal}
    {Wv Wv' Wk Wk' Wq Wq' Wo Wo' : Fin 256 → Fin 256 → EReal} {bv bv' bk bk' bq bq' bo bo' : Fin 256 → EReal}
    (h0 : xb = xb') (h1 : mb = mb') (h2 : Wv = Wv') (h3 : bv = bv') (h4 : Wk = Wk') (h5 : bk = bk')
    (h6 : Wq = Wq') (h7 : bq = bq') (h8 : Wo = Wo') (h9 : bo = bo') (n : Fin 512) (j : Fin 256) :
    attnK xb mb Wv bv Wk bk Wq bq Wo bo n j = attnK xb' mb' Wv' bv' Wk' bk' Wq' bq' Wo' bo' n j := by
  subst h0 h1 h2 h3 h4 h5 h6 h7 h8 h9; rfl

/-- What trip `k` stores at point `t` is `Gfull` on the trip's rectangle of the point's block. -/
theorem store_eq (c : Dev nD) (t : Fin cfg0.N) (k : Fin k0_t1_loop.trips) (x : (storeRect k).shape.Idx) :
    storeVal (F := Ideal) (ms0_0 t) (ms0_1 t)
        (View.readAt (Elt Ideal) (ms0_2 t).view (Rect.unit (s := S256x768) ![0, 0] S256x768.size inb_S256x768_S256x768_0_0).toLoadRect ((hs0_2 t).unread (iblk m c 2 t)))
        (View.readAt (Elt Ideal) (ms0_4 t).view (Rect.unit (s := S256x256) ![0, 0] S256x256.size inb_S256x256_S256x256_0_0).toLoadRect ((hs0_4 t).unread (iblk m c 4 t)))
        (View.readAt (Elt Ideal) (ms0_3 t).view (Rect.unit (s := S768) ![0] S768.size inb_S768_S768_0).toLoadRect ((hs0_3 t).unread (iblk m c 3 t)))
        (View.readAt (Elt Ideal) (ms0_5 t).view (Rect.unit (s := S256) ![0] S256.size inb_S256_S256_0).toLoadRect ((hs0_5 t).unread (iblk m c 5 t)))
        ((hs0_0 t).unread (iblk m c 0 t)) ((hs0_1 t).unread (iblk m c 1 t)) k x
      = Gfull m c (((cfg0.win 6).blk t).view.emb ((storeRect k).emb x)) := by
  have hk : k.val < 8 := Nat.lt_of_lt_of_le k.isLt k0_t1_abs.2.1
  have ht : t.val < 16 := lt_of_lt_of_eq t.isLt N_0
  obtain ⟨u, n, j, rfl⟩ : ∃ (u : Fin 1) (n : Fin 512) (j : Fin 256), x = ix3 u n j := ⟨x 0, x 1, x 2, eq_ix3 x⟩
  obtain rfl : u = 0 := Subsingleton.elim _ _
  rw [storeRect_emb k ⟨k.val, hk⟩ rfl n j, blk6_emb t ⟨k.val, hk⟩ n j ⟨8 * t.val + k.val, by omega⟩ rfl, Gfull_apply]
  unfold storeVal
  rw [load_whole2, load_whole4, load_whole3, load_whole5, pay_apply]
  refine attnK_congr ?_ ?_ ?_ ?_ ?_ ?_ ?_ ?_ ?_ ?_ n j
  · funext n d; rw [load_rows0 _ _ _ k ⟨k.val, hk⟩ rfl n d]; exact iblk0_apply m c t ⟨k.val, hk⟩ n d _ rfl
  · funext n k'; rw [load_rows1 _ _ _ k ⟨k.val, hk⟩ rfl n k']; exact iblk1_apply m c t ⟨k.val, hk⟩ n k' _ rfl
  · funext d h; rw [iblk2_apply]; exact V_v0_colV m c d h
  · funext h; rw [iblk3_apply]; exact V_v1_colV m c h
  · funext d h; rw [iblk2_apply]; exact V_v0_colK m c d h
  · funext h; rw [iblk3_apply]; exact V_v1_colK m c h
  · funext d h; rw [iblk2_apply]; exact V_v0_colQ m c d h
  · funext h; rw [iblk3_apply]; exact V_v1_colQ m c h
  · funext h j; exact iblk4_apply m c t h j
  · funext j; exact iblk5_apply m c t j

/-- What point `t` writes back is block `t` of `Gfull`. -/
theorem flushed6_eq (c : Dev nD) (t : Fin cfg0.N) :
    (dats m 0 c).flushed 6 t = ((cfg0.win 6).blk t).view.read (Elt Ideal) (Gfull m c) := by
  show (cfg0.win 6).cut (grid0.coords t) ((dats m 0 c).after 6 t) = _
  rw [after0_6]
  unfold outsAt0
  rw [out0_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
    (fun y => Gfull m c (((cfg0.win 6).blk t).view.emb y)) (store_eq m c t)]
  rfl

/-- The result array after the run. -/
theorem final6 (c : Dev nD) : (dats m 0 c).arrAt 6 cfg0.N = Gfull m c :=
  (dats m 0 c).arrAt_eq_of_cover 6 (Gfull m c) (fun t _ => flushed6_eq m c t) cover6

/-- The run, read: the result array at `Gfull` of the launch contents, the ten arguments unchanged. -/
theorem run_value : θ_run defs (onTc (τ := τ) (main (F := Ideal))) ⟨m, fun _ => 0, ρ⟩ (fun r => ∀ c : Dev nD,
      r.2.mem ((c.tc : Thread nD τ).loc main_v2) = Gfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 6).trans (final6 m c), kept m r h c⟩) (run_main m ρ)

end Cert.KernelIdeal.Fr

end
-- ==== Proof.RefStages.lean ====
/-
  The reference program's result, read at an index, is the blended-mask attention of the shared specification.

  Every stage of the reference is read at explicit coordinates: the three clamped projections, the scores, the
  blended masking, the row maximum (a fold of `max` over the last axis, taken from the bottom literal, so that a
  further `max` with that literal changes nothing), the shifted exponentials, their row sums, the quotient, the
  mixing of the value rows and the last clamped projection. Each stage is stated against an arbitrary function
  standing for the stage before it, so that no stage opens another.
-/
import proofs.«406869_j18743237280566_3_alg».proof.Proof.Gen.ReferenceIdeal.Read
import proofs.«406869_j18743237280566_3_alg».proof.Proof.Attn
import Mathlib.Data.Finset.Fold

noncomputable section

namespace Cert.RefStages

open Cert.ReferenceIdeal Cert.ReferenceIdeal.Read Idealize.ShloMosaic Idealize.ShloMosaic.ValueIdx

/-- A clamped projection of the activations, read at `(b, n, h)`. -/
theorem v4_apply (x0 : (⟨S128x512x256, .f32⟩ : BufTy).Contents (Elt Ideal)) (x2 : (⟨S256x256, .f32⟩ : BufTy).Contents (Elt Ideal)) (x3 : (⟨S256, .f32⟩ : BufTy).Contents (Elt Ideal))
    (b : Fin 128) (n : Fin 512) (h : Fin 256) :
    val_main_v4 (F := Ideal) x0 x2 x3 (ix3 b n h)
      = Cert.Attn.proj (fun n d => x0 (ix3 b n d)) (fun d h => x2 (ix2 d h)) (fun h => x3 (ix1 h)) n h := by
  rw [val_main_v4_apply, val_main_v3_apply, val_main_v0_apply, val_main_v2_apply, val_main_v1_apply,
    val_main_call0_v0_apply, val_main_call0_cst_apply]
  unfold Cert.Attn.proj
  simp only [Ideal.maximumf_def, Ideal.addf_def, Ideal.ofBits_def]
  have el : ∀ k : Fin 256, lidx_main_v0 (ix3 b n h) k = ix3 b n k := fun k => funext fun a => by
    match a with | ⟨0, _⟩ => rfl | ⟨1, _⟩ => rfl | ⟨2, _⟩ => rfl
  have er : ∀ k : Fin 256, ridx_main_v0 (ix3 b n h) k = ix2 k h := fun k => funext fun a => by
    match a with | ⟨0, _⟩ => rfl | ⟨1, _⟩ => rfl
  have eb : idx_main_v1 (idx_main_v2 (ix3 b n h)) = ix1 h := funext fun a => by
    match a with | ⟨0, _⟩ => rfl
  rw [eb]
  simp only [el, er]

/-- A clamped projection of the activations, read at `(b, n, h)`. -/
theorem v9_apply (x0 : (⟨S128x512x256, .f32⟩ : BufTy).Contents (Elt Ideal)) (x6 : (⟨S256x256, .f32⟩ : BufTy).Contents (Elt Ideal)) (x7 : (⟨S256, .f32⟩ : BufTy).Contents (Elt Ideal))
    (b : Fin 128) (n : Fin 512) (h : Fin 256) :
    val_main_v9 (F := Ideal) x0 x6 x7 (ix3 b n h)
      = Cert.Attn.proj (fun n d => x0 (ix3 b n d)) (fun d h => x6 (ix2 d h)) (fun h => x7 (ix1 h)) n h := by
  rw [val_main_v9_apply, val_main_v8_apply, val_main_v5_apply, val_main_v7_apply, val_main_v6_apply,
    val_main_call1_v0_apply, val_main_call1_cst_apply]
  unfold Cert.Attn.proj
  simp only [Ideal.maximumf_def, Ideal.addf_def, Ideal.ofBits_def]
  have el : ∀ k : Fin 256, lidx_main_v5 (ix3 b n h) k = ix3 b n k := fun k => funext fun a => by
    match a with | ⟨0, _⟩ => rfl | ⟨1, _⟩ => rfl | ⟨2, _⟩ => rfl
  have er : ∀ k : Fin 256, ridx_main_v5 (ix3 b n h) k = ix2 k h := fun k => funext fun a => by
    match a with | ⟨0, _⟩ => rfl | ⟨1, _⟩ => rfl
  have eb : idx_main_v6 (idx_main_v7 (ix3 b n h)) = ix1 h := funext fun a => by
    match a with | ⟨0, _⟩ => rfl
  rw [eb]
  simp only [el, er]

/-- A clamped projection of the activations, read at `(b, n, h)`. -/
theorem v14_apply (x0 : (⟨S128x512x256, .f32⟩ : BufTy).Contents (Elt Ideal)) (x4 : (⟨S256x256, .f32⟩ : BufTy).Contents (Elt Ideal)) (x5 : (⟨S256, .f32⟩ : BufTy).Contents (Elt Ideal))
    (b : Fin 128) (n : Fin 512) (h : Fin 256) :
    val_main_v14 (F := Ideal) x0 x4 x5 (ix3 b n h)
      = Cert.Attn.proj (fun n d => x0 (ix3 b n d)) (fun d h => x4 (ix2 d h)) (fun h => x5 (ix1 h)) n h := by
  rw [val_main_v14_apply, val_main_v13_apply, val_main_v10_apply, val_main_v12_apply, val_main_v11_apply,
    val_main_call2_v0_apply, val_main_call2_cst_apply]
  unfold Cert.Attn.proj
  simp only [Ideal.maximumf_def, Ideal.addf_def, Ideal.ofBits_def]
  have el : ∀ k : Fin 256, lidx_main_v10 (ix3 b n h) k = ix3 b n k := fun k => funext fun a => by
    match a with | ⟨0, _⟩ => rfl | ⟨1, _⟩ => rfl | ⟨2, _⟩ => rfl
  have er : ∀ k : Fin 256, ridx_main_v10 (ix3 b n h) k = ix2 k h := fun k => funext fun a => by
    match a with | ⟨0, _⟩ => rfl | ⟨1, _⟩ => rfl
  have eb : idx_main_v11 (idx_main_v12 (ix3 b n h)) = ix1 h := funext fun a => by
    match a with | ⟨0, _⟩ => rfl
  rw [eb]
  simp only [el, er]

/-- The scores, read at `(b, n, m)`: query row `n` against key row `m`. -/
theorem v15_of (x0 : (⟨S128x512x256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (q k : Fin 512 → Fin 256 → EReal)
    (hq : ∀ n h, val_main_v9 (F := Ideal) x0 x6 x7 (ix3 b n h) = q n h)
    (hk : ∀ n h, val_main_v14 (F := Ideal) x0 x4 x5 (ix3 b n h) = k n h) (n m : Fin 512) :
    val_main_v15 (F := Ideal) x0 x4 x5 x6 x7 (ix3 b n m) = Cert.Attn.score q k n m := by
  rw [val_main_v15_apply]
  unfold Cert.Attn.score
  refine Finset.sum_congr rfl fun h _ => ?_
  have el : lidx_main_v15 (ix3 b n m) h = ix3 b n h := funext fun a => by
    match a with | ⟨0, _⟩ => rfl | ⟨1, _⟩ => rfl | ⟨2, _⟩ => rfl
  have er : ridx_main_v15 (ix3 b n m) h = ix3 b m h := funext fun a => by
    match a with | ⟨0, _⟩ => rfl | ⟨1, _⟩ => rfl | ⟨2, _⟩ => rfl
  rw [el, er, hq, hk]

/-- The blended masking, read at `(b, n, m)`. -/
theorem v21_of (x0 : (⟨S128x512x256, .f32⟩ : BufTy).Contents (Elt Ideal)) (x1 : (⟨S128x512x512, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (s : Fin 512 → Fin 512 → EReal)
    (hs : ∀ n m, val_main_v15 (F := Ideal) x0 x4 x5 x6 x7 (ix3 b n m) = s n m) (n m : Fin 512) :
    val_main_v21 (F := Ideal) x0 x1 x4 x5 x6 x7 (ix3 b n m)
      = Cert.Attn.fillR s (fun n m => x1 (ix3 b n m)) n m := by
  rw [val_main_v21_apply, val_main_v16_apply, val_main_v20_apply, val_main_v19_apply, val_main_cst_0_apply,
    val_main_v18_apply, val_main_v17_apply, val_main_cst_apply, hs]
  unfold Cert.Attn.fillR
  simp only [Ideal.subf_def, Ideal.mulf_def, Ideal.ofBits_def]

/-- The row maximum, read at `(b, n)`: the fold of `max` over the last axis from the bottom literal; the further
    `max` with that literal changes nothing, a fold of `max` being at least its starting value. -/
theorem v24_of (x0 : (⟨S128x512x256, .f32⟩ : BufTy).Contents (Elt Ideal)) (x1 : (⟨S128x512x512, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (s : Fin 512 → Fin 512 → EReal)
    (hs : ∀ n m, val_main_v21 (F := Ideal) x0 x1 x4 x5 x6 x7 (ix3 b n m) = s n m) (n : Fin 512) :
    val_main_v24 (F := Ideal) x0 x1 x4 x5 x6 x7 (ix2 b n) = Cert.Attn.rowmax s n := by
  rw [val_main_v24_apply, val_main_v23_apply, val_main_cst_2_apply]
  unfold val_main_v22
  generalize val_main_v21 (F := Ideal) x0 x1 x4 x5 x6 x7 = y at hs ⊢
  have hr : S128x512x512.Reduces [2] S128x512 := by decide
  rw [Host.reduce_eq_fold_single (FloatOps.maximumf (F := Ideal) (φ := .f32)) y _
    Gen.reducesTo_S128x512x512_S128x512_d2 hr Gen.h_S_ (ix2 b n)]
  show max (Ideal.ofBits .f32 0xFF800000#32) ((Finset.univ : Finset (Fin 512)).fold max
    (Ideal.ofBits .f32 0xFF800000#32) (fun m : Fin 512 => y (hr.lift (ix2 b n) m))) = _
  unfold Cert.Attn.rowmax
  have hf : (fun m : Fin 512 => y (hr.lift (ix2 b n) m)) = s n := funext fun m => by
    rw [← hs]
    exact congrArg y (funext fun a => Fin.ext (by match a with | ⟨0, _⟩ => rfl | ⟨1, _⟩ => rfl | ⟨2, _⟩ => rfl))
  rw [hf]
  exact max_eq_right ((Finset.le_fold_max _).mpr (Or.inl le_rfl))

/-- The shifted exponential, read at `(b, n, m)`. -/
theorem v28_of (x0 : (⟨S128x512x256, .f32⟩ : BufTy).Contents (Elt Ideal)) (x1 : (⟨S128x512x512, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (s : Fin 512 → Fin 512 → EReal)
    (hs : ∀ n m, val_main_v21 (F := Ideal) x0 x1 x4 x5 x6 x7 (ix3 b n m) = s n m) (n m : Fin 512) :
    val_main_v28 (F := Ideal) x0 x1 x4 x5 x6 x7 (ix3 b n m) = Ideal.exp (s n m - Cert.Attn.rowmax s n) := by
  rw [val_main_v28_apply, val_main_v27_apply, val_main_v26_apply, val_main_v25_apply, hs]
  have e : idx_main_v25 (idx_main_v26 (ix3 b n m)) = ix2 b n := funext fun a => by
    match a with | ⟨0, _⟩ => rfl | ⟨1, _⟩ => rfl
  rw [e, v24_of x0 x1 x4 x5 x6 x7 b s hs n]
  simp only [Ideal.hostUnary_exp_def, Ideal.subf_def]

/-- The softmax along a row, read at `(b, n, m)`: the shifted exponential over the row's sum of them (the sum starts
    from the zero literal, which is the extended real `0`). -/
theorem v32_of (x0 : (⟨S128x512x256, .f32⟩ : BufTy).Contents (Elt Ideal)) (x1 : (⟨S128x512x512, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (s : Fin 512 → Fin 512 → EReal)
    (hs : ∀ n m, val_main_v21 (F := Ideal) x0 x1 x4 x5 x6 x7 (ix3 b n m) = s n m) (n m : Fin 512) :
    val_main_v32 (F := Ideal) x0 x1 x4 x5 x6 x7 (ix3 b n m) = Cert.Attn.soft s n m := by
  rw [val_main_v32_apply, val_main_v31_apply, val_main_v30_apply, val_main_v29_apply, val_main_cst_3_apply]
  have e : idx_main_v30 (idx_main_v31 (ix3 b n m)) = ix2 b n := funext fun a => by
    match a with | ⟨0, _⟩ => rfl | ⟨1, _⟩ => rfl
  have ek : ∀ k : Fin 512, idx_main_v29 (ix2 b n) k = ix3 b n k := fun k => funext fun a => by
    match a with | ⟨0, _⟩ => rfl | ⟨1, _⟩ => rfl | ⟨2, _⟩ => rfl
  rw [e]
  unfold Cert.Attn.soft
  simp only [ek, v28_of x0 x1 x4 x5 x6 x7 b s hs, Ideal.hostDivf_def, Ideal.ofBits_def, Ideal.ofBits_zero_f32, zero_add]

/-- The value rows mixed by the attention weights, read at `(b, n, h)`. -/
theorem v33_of (x0 : (⟨S128x512x256, .f32⟩ : BufTy).Contents (Elt Ideal)) (x1 : (⟨S128x512x512, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (b : Fin 128) (w : Fin 512 → Fin 512 → EReal) (v : Fin 512 → Fin 256 → EReal)
    (hw : ∀ n m, val_main_v32 (F := Ideal) x0 x1 x4 x5 x6 x7 (ix3 b n m) = w n m)
    (hv : ∀ n h, val_main_v4 (F := Ideal) x0 x2 x3 (ix3 b n h) = v n h) (n : Fin 512) (h : Fin 256) :
    val_main_v33 (F := Ideal) x0 x1 x2 x3 x4 x5 x6 x7 (ix3 b n h) = Cert.Attn.mix w v n h := by
  rw [val_main_v33_apply]
  unfold Cert.Attn.mix
  refine Finset.sum_congr rfl fun m _ => ?_
  have el : lidx_main_v33 (ix3 b n h) m = ix3 b n m := funext fun a => by
    match a with | ⟨0, _⟩ => rfl | ⟨1, _⟩ => rfl | ⟨2, _⟩ => rfl
  have er : ridx_main_v33 (ix3 b n h) m = ix3 b m h := funext fun a => by
    match a with | ⟨0, _⟩ => rfl | ⟨1, _⟩ => rfl | ⟨2, _⟩ => rfl
  rw [el, er, hw, hv]

/-- The last clamped projection, read at `(b, n, j)`. -/
theorem v38_of (x0 : (⟨S128x512x256, .f32⟩ : BufTy).Contents (Elt Ideal)) (x1 : (⟨S128x512x512, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (b : Fin 128) (o : Fin 512 → Fin 256 → EReal)
    (ho : ∀ n h, val_main_v33 (F := Ideal) x0 x1 x2 x3 x4 x5 x6 x7 (ix3 b n h) = o n h) (n : Fin 512) (j : Fin 256) :
    val_main_v38 (F := Ideal) x0 x1 x2 x3 x4 x5 x6 x7 x8 x9 (ix3 b n j)
      = Cert.Attn.proj o (fun d h => x8 (ix2 d h)) (fun h => x9 (ix1 h)) n j := by
  rw [val_main_v38_apply, val_main_v37_apply, val_main_v34_apply, val_main_v36_apply, val_main_v35_apply,
    val_main_call3_v0_apply, val_main_call3_cst_apply]
  unfold Cert.Attn.proj
  simp only [Ideal.maximumf_def, Ideal.addf_def, Ideal.ofBits_def]
  have el : ∀ k : Fin 256, lidx_main_v34 (ix3 b n j) k = ix3 b n k := fun k => funext fun a => by
    match a with | ⟨0, _⟩ => rfl | ⟨1, _⟩ => rfl | ⟨2, _⟩ => rfl
  have er : ∀ k : Fin 256, ridx_main_v34 (ix3 b n j) k = ix2 k j := fun k => funext fun a => by
    match a with | ⟨0, _⟩ => rfl | ⟨1, _⟩ => rfl
  have eb : idx_main_v35 (idx_main_v36 (ix3 b n j)) = ix1 j := funext fun a => by
    match a with | ⟨0, _⟩ => rfl
  rw [eb]
  simp only [el, er, ho]

/-- The reference's result at `(b, n, j)` is the blended-mask attention of batch entry `b` at `(n, j)`. -/
theorem ref_apply (x0 : (⟨S128x512x256, .f32⟩ : BufTy).Contents (Elt Ideal)) (x1 : (⟨S128x512x512, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (b : Fin 128) (n : Fin 512) (j : Fin 256) :
    val_main_v38 (F := Ideal) x0 x1 x2 x3 x4 x5 x6 x7 x8 x9 (ix3 b n j)
      = Cert.Attn.attnR (fun n d => x0 (ix3 b n d)) (fun n m => x1 (ix3 b n m)) (fun d h => x2 (ix2 d h))
          (fun h => x3 (ix1 h)) (fun d h => x4 (ix2 d h)) (fun h => x5 (ix1 h)) (fun d h => x6 (ix2 d h))
          (fun h => x7 (ix1 h)) (fun d h => x8 (ix2 d h)) (fun h => x9 (ix1 h)) n j := by
  unfold Cert.Attn.attnR
  exact v38_of x0 x1 x2 x3 x4 x5 x6 x7 x8 x9 b _
    (v33_of x0 x1 x2 x3 x4 x5 x6 x7 b _ _
      (v32_of x0 x1 x4 x5 x6 x7 b _
        (v21_of x0 x1 x4 x5 x6 x7 b _
          (v15_of x0 x4 x5 x6 x7 b _ _ (v9_apply x0 x6 x7 b) (v14_apply x0 x4 x5 b))))
      (v4_apply x0 x2 x3 b)) n j

end Cert.RefStages

end
-- ==== Proof.AttnLaws.lean ====
/-
  Laws of the masked attention specification: the values of the literals, and the agreement of the two forms of
  masking (selection and blending) on a mask whose entries are all zero or one.
-/
import proofs.«406869_j18743237280566_3_alg».proof.Proof.Attn
import Mathlib.Data.EReal.Basic
import Mathlib.Data.EReal.Operations

noncomputable section

namespace Cert.Attn

open Idealize.ShloMosaic

/-- The all-zero word denotes zero. -/
theorem zeroLit_eq : zeroLit = 0 := Ideal.ofBits_zero_f32

/-- The word `0x3F800000` denotes one. -/
theorem oneLit_eq : oneLit = 1 := by
  simp [Ideal.ofBits, Ideal.ieee, -EReal.coe_mul]; norm_num

/-- The fill is the negative of the large literal: the two words differ in the sign bit only. -/
theorem fillLit_eq : fillLit = -bigLit := by
  simp [Ideal.ofBits, Ideal.ieee, -EReal.coe_mul]

/-- On the extended reals `1 - 1 = 0`: both are finite. -/
private theorem one_sub_one : (1 : EReal) - 1 = 0 := by
  rw [← EReal.coe_one, ← EReal.coe_sub, sub_self, EReal.coe_zero]

/-- On a mask of zeros and ones blending is selection. At one, `s · 1 − big · (1 − 1) = s − big · 0 = s`; at zero,
    `s · 0 − big · (1 − 0) = 0 − big = −big`, which is the fill, and zero is not one so the selection takes the fill. -/
theorem fillR_eq_fillK (s mb : Fin 512 → Fin 512 → EReal)
    (hb : ∀ n m, mb n m = zeroLit ∨ mb n m = oneLit) : fillR s mb = fillK s mb := by
  funext n m
  unfold fillR fillK
  rcases hb n m with h | h
  · have h01 : zeroLit ≠ oneLit := by rw [zeroLit_eq, oneLit_eq]; exact zero_ne_one
    rw [h, if_neg h01, fillLit_eq, zeroLit_eq, oneLit_eq, mul_zero, sub_zero, mul_one, sub_eq_add_neg, zero_add]
  · rw [h, if_pos rfl, oneLit_eq, one_sub_one, mul_one, mul_zero, sub_zero]

/-- The two forms of the whole attention agree on a mask of zeros and ones. -/
theorem attnR_eq_attnK (xb : Fin 512 → Fin 256 → EReal) (mb : Fin 512 → Fin 512 → EReal)
    (Wv : Fin 256 → Fin 256 → EReal) (bv : Fin 256 → EReal) (Wk : Fin 256 → Fin 256 → EReal) (bk : Fin 256 → EReal)
    (Wq : Fin 256 → Fin 256 → EReal) (bq : Fin 256 → EReal) (Wo : Fin 256 → Fin 256 → EReal) (bo : Fin 256 → EReal)
    (hb : ∀ n m, mb n m = zeroLit ∨ mb n m = oneLit) :
    attnR xb mb Wv bv Wk bk Wq bq Wo bo = attnK xb mb Wv bv Wk bk Wq bq Wo bo := by
  unfold attnR attnK
  rw [fillR_eq_fillK _ _ hb]

end Cert.Attn

end
-- ==== Proof.PreMask.lean ====
/-
  The last conjunct of the precondition, read back: the precondition being all ones says in particular that the
  `and`-reduction over the whole of the second argument of "this entry equals zero or this entry equals one" is one, so
  every entry of the second argument (the mask) is the literal zero or the literal one.
-/
import proofs.«406869_j18743237280566_3_alg».proof.Pre_finite_inputs
import proofs.«406869_j18743237280566_3_alg».proof.Proof.Gen.Pre_finite_inputs
import Idealize.ShloMosaic.Lib.ReduceAll
import Idealize.ShloMosaic.Lib.ValueIdx
import Idealize.ShloMosaic.PureOps.Ideal
import proofs.«406869_j18743237280566_3_alg».proof.Proof.Attn

namespace Cert.PreMask

open Idealize.ShloMosaic Cert.Pre_finite_inputs

/-- The rank-0 shape has one index. -/
instance : Subsingleton S_.Idx := ⟨fun a b => funext fun d => d.elim0⟩

/-- An ordered-equal comparison of an entry with a broadcast literal that came out one says the entry is the literal. -/
private theorem eq_of_cmp_bcast (x1 : FVec Ideal S128x512x512 .f32) (b : BitVec 32)
    (hbc : S_.BroadcastsInDim S128x512x512 (![] : Fin 0 → Fin S128x512x512.rank)) (i : S128x512x512.Idx)
    (hc : cmpf .oeq x1 (broadcastInDim S128x512x512 ![] hbc (constant (F := Ideal) S_ .f32 b)) i = 1#1) :
    x1 i = Ideal.ofBits .f32 b := by
  have h1 : BitVec.ofBool (decide (x1 i = Ideal.ofBits .f32 b)) = 1#1 := hc
  by_contra hne
  rw [decide_eq_false hne] at h1
  exact absurd h1 (by decide)

/-- Under the precondition every entry of the mask is the literal zero or the literal one. -/
theorem mask_binary [Cert.Pre_finite_inputs.Facts] (x0 : FVec Ideal S128x512x256 .f32) (x1 : FVec Ideal S128x512x512 .f32)
    (x2 : FVec Ideal S256x256 .f32) (x3 : FVec Ideal S256 .f32) (x4 : FVec Ideal S256x256 .f32) (x5 : FVec Ideal S256 .f32)
    (x6 : FVec Ideal S256x256 .f32) (x7 : FVec Ideal S256 .f32) (x8 : FVec Ideal S256x256 .f32) (x9 : FVec Ideal S256 .f32)
    (h : Cert.Pre_finite_inputs.fn (F := Ideal) x0 x1 x2 x3 x4 x5 x6 x7 x8 x9 = fun _ => 1#1) (i : S128x512x512.Idx) :
    x1 i = Cert.Attn.zeroLit ∨ x1 i = Cert.Attn.oneLit := by
  have h0 := congrFun h ValueIdx.ix0
  dsimp only [fn, fn_part1, fn_part2, fn_part3] at h0
  have h54 := (IntOp.andi_eq_one.1 h0).2
  have hi := Host.reduce_andi_all _ _ _ _ _ h54 i
  rcases IntOp.ori_eq_one.1 hi with hz | ho
  · exact Or.inl (eq_of_cmp_bcast x1 _ _ i hz)
  · exact Or.inr (eq_of_cmp_bcast x1 _ _ i ho)

end Cert.PreMask
-- ==== Proof.lean ====
/-
  The certificate: a fused masked-attention kernel (three clamped projections computed as one product against the
  concatenated weights, scores, masking, a row softmax, the mixing of the value rows, a clamped output
  projection; eight batch entries per grid point, sixteen points) computes the same function over the extended
  reals as its reference, on masks whose entries are all zero or one.

  Frames. Each program runs to its end without a fault and leaves its ten argument arrays unchanged: the two
  printings of the kernel by the pipeline's launch theorem over the body's symbolic run (one text, read at the
  word-level and at the ideal float instance), the reference by its run as a sequence of host operations.

  Preservation. The ideal printing rewrote no operation, so there is nothing to state.

  Equality. The kernel's result array ends at ONE function of the launch contents: at (b, n, j), batch entry
  `b`'s attention at row `n`, column `j`, the mask applied by SELECTION (the score where the mask entry is one, a
  large negative fill elsewhere). The reference's result, read operation by operation at the same index, is the same
  attention with the mask applied by BLENDING, `score · mask − big · (1 − mask)`. The precondition says every mask
  entry is zero or one, and there the blend is the selection: at one, `score · 1 − big · 0 = score`; at zero,
  `score · 0 − big · 1 = −big`, which is the fill. Sums, maxima, exponentials and quotients are then the same
  terms on both sides; changes of float format are the identity on the extended reals; a product into a zero
  accumulator is a plain sum; a slice of the fused projection is the projection against the matching columns.
-/
import proofs.«406869_j18743237280566_3_alg».proof.Defs
import proofs.«406869_j18743237280566_3_alg».proof.Proof.Gen.Kernel
import proofs.«406869_j18743237280566_3_alg».proof.Proof.Gen.KernelIdeal
import proofs.«406869_j18743237280566_3_alg».proof.Proof.Gen.ReferenceIdeal
import proofs.«406869_j18743237280566_3_alg».proof.Proof.Gen.Pre_finite_inputs
import proofs.«406869_j18743237280566_3_alg».proof.Proof.Gen.ReferenceIdeal.Run
import proofs.«406869_j18743237280566_3_alg».proof.Proof.Gen.ReferenceIdeal.Read
import proofs.«406869_j18743237280566_3_alg».proof.Proof.K.Frame
import proofs.«406869_j18743237280566_3_alg».proof.Proof.KI.Frame
import proofs.«406869_j18743237280566_3_alg».proof.Proof.KI.Result
import proofs.«406869_j18743237280566_3_alg».proof.Proof.RefStages
import proofs.«406869_j18743237280566_3_alg».proof.Proof.AttnLaws
import proofs.«406869_j18743237280566_3_alg».proof.Proof.PreMask
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel's frame. -/
theorem frame_k : Cert.frame_Kernel := fun m ρ _ => Cert.Kernel.Fr.frame (F := Bits) m ρ

/-- The idealized kernel's frame. -/
theorem frame_ki : Cert.frame_KernelIdeal := fun m ρ _ => Cert.KernelIdeal.Fr.frame (F := Ideal) m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal printing rewrote nothing. -/
theorem preserves : Cert.preserves_Kernel_KernelIdeal := trivial

/-- Both runs end with the result array at batch entry `b`'s attention at (n, j): the kernel's by its run read
    block by block, the reference's by its run read operation by operation, the two maskings one on a zero-or-one mask. -/
theorem algebraic : Cert.algebraic_KernelIdeal_ReferenceIdeal := by
  intro m ρ m' ρ' hpre hagree
  refine ⟨fun c => Cert.KernelIdeal.Fr.Gfull m c, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v38_eq, e0, e1, e2, e3, e4, e5, e6, e7, e8, e9]
  funext i
  obtain ⟨b, n, j, rfl⟩ : ∃ (b : Fin 128) (n : Fin 512) (j : Fin 256), i = ix3 b n j := ⟨i 0, i 1, i 2, eq_ix3 i⟩
  rw [Cert.RefStages.ref_apply,
    Cert.Attn.attnR_eq_attnK _ _ _ _ _ _ _ _ _ _ (fun n k => Cert.PreMask.mask_binary _ _ _ _ _ _ _ _ _ _ (hpre c) (ix3 b n k))]
  exact (Cert.KernelIdeal.Fr.Gfull_apply m c b n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
